-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S8x128x128x2 : Shape := ⟨4, ![8, 128, 128, 2]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S8x128x128x2 : S_.BroadcastsInDim S8x128x128x2 (![] : Fin 0 → Fin S8x128x128x2.rank)
  reducesTo_S8x128x128x2_S_d0_1_2_3 : S8x128x128x2.ReducesTo [0, 1, 2, 3] S_

variable [Facts]

def fn {F : FTy → Type} [FloatOps F] (main_arg0 : FVec F S8x128x128x128 .f32) (main_arg1 : FVec F S8x128x128x2 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S8x128x128x2 .f32 := Host.absf main_arg1
  let main_cst_0 : FVec F S_ .f32 := constant S_ .f32 0x7F800000#32
  let main_v5 : FVec F S8x128x128x2 .f32 := broadcastInDim S8x128x128x2 ![] bcast_S_S8x128x128x2 main_cst_0
  let main_v6 : IVec S8x128x128x2 1 := cmpf .olt main_v4 main_v5
  let main_c_1 : IVec S_ 1 := constantI S_ 1 1#1
  let main_v7 : IVec S_ 1 := (fun x v => Host.reduce IntOp.andi x v reducesTo_S8x128x128x2_S_d0_1_2_3 h_S_) main_v6 main_c_1
  let main_v8 : IVec S_ 1 := andi main_v3 main_v7
  main_v8
-- ==== Kernel.lean ====
abbrev S8x128x128x128 : Shape := ⟨4, ![8, 128, 128, 128]⟩
abbrev S8x128x128x2 : Shape := ⟨4, ![8, 128, 128, 2]⟩
abbrev S8x128x128x1 : Shape := ⟨4, ![8, 128, 128, 1]⟩
abbrev S8x128x128 : Shape := ⟨3, ![8, 128, 128]⟩
abbrev S1x128x128x128 : Shape := ⟨4, ![1, 128, 128, 128]⟩
abbrev S1x16x128 : Shape := ⟨3, ![1, 16, 128]⟩
abbrev S1x128x16x128 : Shape := ⟨4, ![1, 128, 16, 128]⟩
abbrev S16x128 : Shape := ⟨2, ![16, 128]⟩
abbrev S128x16x128 : Shape := ⟨3, ![128, 16, 128]⟩
abbrev S128x2048 : Shape := ⟨2, ![128, 2048]⟩
abbrev S1x4x128x128 : Shape := ⟨4, ![1, 4, 128, 128]⟩
abbrev S4x128x128 : Shape := ⟨3, ![4, 128, 128]⟩
abbrev S512x128 : Shape := ⟨2, ![512, 128]⟩
abbrev S512x2048 : Shape := ⟨2, ![512, 2048]⟩
abbrev S4x128x16x128 : Shape := ⟨4, ![4, 128, 16, 128]⟩
abbrev S4x16x128 : Shape := ⟨3, ![4, 16, 128]⟩
abbrev S1x4x16x128 : Shape := ⟨4, ![1, 4, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x2, .f32⟩
  | .hbm, ⟨2, _⟩ => ⟨S8x128x128x1, .f32⟩
  | .hbm, ⟨3, _⟩ => ⟨S8x128x128, .f32⟩
  | .hbm, ⟨4, _⟩ => ⟨S8x128x128x1, .f32⟩
  | .hbm, ⟨5, _⟩ => ⟨S8x128x128, .f32⟩
  | .hbm, ⟨6, _⟩ => ⟨S8x128x128x128, .bf16⟩
  | .hbm, ⟨7, _⟩ => ⟨S8x128x128x128, .f32⟩
  | .local _ .vmem, ⟨0, _⟩ => ⟨S1x128x128x128, .bf16⟩
  | .local _ .vmem, ⟨1, _⟩ => ⟨S1x128x128x128, .bf16⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x128x16x128, .f32⟩
  | .local _ .vmem, ⟨7, _⟩ => ⟨S1x128x16x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c32_i32 : BitVec 32 := 32#32
  let v70 : BitVec 32 := Scalar.addi c0_i32 c32_i32
  let c1_i32 : BitVec 32 := 1#32
  ⟨c0_i32, v70, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c4_i32 : BitVec 32 := 4#32
  let v71 : BitVec 32 := Scalar.muli arg6 c4_i32
  v71
def k0_off1 (k0_t1 : Fin k0_t1_loop.trips) : Fin 4 → Nat :=
  let c0_19 : Index := 0#32
  let c0_i32 : BitVec 32 := 0#32
  let c1_i32 : BitVec 32 := 1#32
  let arg6 : BitVec 32 := Scf.iv c0_i32 c1_i32 k0_t1
  let c4_i32 : BitVec 32 := 4#32
  let v71 : BitVec 32 := Scalar.muli arg6 c4_i32
  let v72 : BitVec 32 := v71
  let v73 : Index := Scalar.indexCast v72
  let c0_20 : Index := 0#32
  let c0_21 : Index := 0#32
  ![0, v73.toNat, 0, 0]
def k0_off2 (k0_t1 : Fin k0_t1_loop.trips) : Fin 4 → Nat :=
  let c0_24 : Index := 0#32
  let c0_i32 : BitVec 32 := 0#32
  let c1_i32 : BitVec 32 := 1#32
  let arg6 : BitVec 32 := Scf.iv c0_i32 c1_i32 k0_t1
  let c4_i32 : BitVec 32 := 4#32
  let v71 : BitVec 32 := Scalar.muli arg6 c4_i32
  let v72 : BitVec 32 := v71
  let v83 : Index := Scalar.indexCast v72
  let c0_25 : Index := 0#32
  let c0_26 : Index := 0#32
  ![0, v83.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8x128x128x2_S8x128x128x1_0_0_0_0 : S8x128x128x2.Slices ![0, 0, 0, 0] S8x128x128x1
  shapeCasts_S8x128x128x1_S8x128x128 : S8x128x128x1.ShapeCasts S8x128x128
  slices_S8x128x128x2_S8x128x128x1_0_0_0_1 : S8x128x128x2.Slices ![0, 0, 0, 1] S8x128x128x1
  bitsLt_bf16_f32 : FTy.bits .bf16 < FTy.bits .f32
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  iota_S128x16x128_d0_w32 : S128x16x128.Iotas .tc 32 [0]
  shapeCasts_S16x128_S1x16x128 : S16x128.ShapeCasts S1x16x128
  broadcasts_S1x16x128_S128x16x128 : S1x16x128.Broadcasts S128x16x128
  shapeCasts_S1x16x128_S1x16x128 : S1x16x128.ShapeCasts S1x16x128
  shapeCasts_S128x16x128_S128x2048 : S128x16x128.ShapeCasts S128x2048
  h_S1x4x128x128 : 0 < S1x4x128x128.numel
  shapeCasts_S1x4x128x128_S4x128x128 : S1x4x128x128.ShapeCasts S4x128x128
  shapeCasts_S4x128x128_S512x128 : S4x128x128.ShapeCasts S512x128
  shapeCasts_S512x2048_S4x128x16x128 : S512x2048.ShapeCasts S4x128x16x128
  shapeCasts_S128x16x128_S1x128x16x128 : S128x16x128.ShapeCasts S1x128x16x128
  broadcasts_S1x128x16x128_S4x128x16x128 : S1x128x16x128.Broadcasts S4x128x16x128
  reduces_S4x128x16x128_S4x16x128 : S4x128x16x128.Reduces [1] S4x16x128
  h_S1x4x16x128 : 0 < S1x4x16x128.numel
  shapeCasts_S1x4x16x128_S4x16x128 : S1x4x16x128.ShapeCasts S4x16x128
  shapeCasts_S4x16x128_S1x4x16x128 : S4x16x128.ShapeCasts S1x4x16x128
  dot_S512x128_S128x2048_S512x2048_1_0_0_1_n_n_wf : DotDims.WF S512x128 S128x2048 S512x2048 [1] [0] [0] [1] [] []
  hrank0 : 0 < grid0.rank
  k0_t1_ok : k0_t1_loop.OK
  k0_mult1_dvd : ∀ k0_t1 : Fin k0_t1_loop.trips, 4 ∣ (k0_mult1 k0_t1).toNat
  k0_off1_inb : ∀ k0_t1 : Fin k0_t1_loop.trips, ∀ a, (k0_off1 k0_t1) a + S1x4x128x128.size a ≤ S1x128x128x128.size a
  k0_off2_inb : ∀ k0_t1 : Fin k0_t1_loop.trips, ∀ a, (k0_off2 k0_t1) a + S1x4x16x128.size a ≤ S1x128x16x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S8x128x128x128.size a
  hwx0_0 : ∀ i : grid0.Coords, EltTy.bits .bf16 = 32 ∨ (Rect.block (s := S8x128x128x128) S1x128x128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S8x128x128.size a
  hwx0_1 : ∀ i : grid0.Coords, EltTy.bits .f32 = 32 ∨ (Rect.block (s := S8x128x128) S1x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S8x128x128.size a
  hwx0_2 : ∀ i : grid0.Coords, EltTy.bits .f32 = 32 ∨ (Rect.block (s := S8x128x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16x128.size a ≤ S8x128x128x128.size a
  hwx0_3 : ∀ i : grid0.Coords, EltTy.bits .f32 = 32 ∨ (Rect.block (s := S8x128x128x128) S1x128x16x128.size (cc0_transform_3 i) (hinb0_3 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v4) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S8x128x128x2 : Shape := ⟨4, ![8, 128, 128, 2]⟩
abbrev S8x128x128x1 : Shape := ⟨4, ![8, 128, 128, 1]⟩
abbrev S8x128x128 : Shape := ⟨3, ![8, 128, 128]⟩
abbrev S_ : Shape := ⟨0, ![]⟩
abbrev S8x1x128x128 : Shape := ⟨4, ![8, 1, 128, 128]⟩

abbrev nBuf : Space → Nat
  | .hbm => 275
  | .vmem => 0
  | .smem => 0
  | _ => 0

abbrev hbmTy0_0 (i : Nat) : BufTy := match i % 128 with
  | 0 => ⟨S8x128x128x128, .f32⟩
  | 1 => ⟨S8x128x128x2, .f32⟩
  | 2 => ⟨S8x128x128x1, .f32⟩
  | 3 => ⟨S8x128x128, .f32⟩
  | 4 => ⟨S8x128x128x1, .f32⟩
  | 5 => ⟨S8x128x128, .f32⟩
  | 6 => ⟨S_, .f32⟩
  | 7 => ⟨S8x128x128, .f32⟩
  | 8 => ⟨S8x128x128, .f32⟩
  | 9 => ⟨S_, .f32⟩
  | 10 => ⟨S8x128x128, .f32⟩
  | 11 => ⟨S8x128x128, .f32⟩
  | 12 => ⟨S_, .f32⟩
  | 13 => ⟨S8x128x128, .f32⟩
  | 14 => ⟨S8x128x128, .f32⟩
  | 15 => ⟨S_, .f32⟩
  | 16 => ⟨S8x128x128, .f32⟩
  | 17 => ⟨S8x128x128, .f32⟩
  | 18 => ⟨S_, .f32⟩
  | 19 => ⟨S8x128x128, .f32⟩
  | 20 => ⟨S8x128x128, .f32⟩
  | 21 => ⟨S_, .f32⟩
  | 22 => ⟨S8x128x128, .f32⟩
  | 23 => ⟨S8x128x128, .f32⟩
  | 24 => ⟨S8x128x128, .f32⟩
  | 25 => ⟨S8x128x128, .f32⟩
  | 26 => ⟨S_, .f32⟩
  | 27 => ⟨S8x128x128, .f32⟩
  | 28 => ⟨S8x128x128, .f32⟩
  | 29 => ⟨S_, .f32⟩
  | 30 => ⟨S8x128x128, .f32⟩
  | 31 => ⟨S8x128x128, .f32⟩
  | 32 => ⟨S8x128x128, .f32⟩
  | 33 => ⟨S8x128x128, .f32⟩
  | 34 => ⟨S_, .f32⟩
  | 35 => ⟨S8x128x128, .f32⟩
  | 36 => ⟨S8x128x128, .f32⟩
  | 37 => ⟨S_, .f32⟩
  | 38 => ⟨S8x128x128, .f32⟩
  | 39 => ⟨S8x128x128, .f32⟩
  | 40 => ⟨S8x128x128, .i32⟩
  | 41 => ⟨S8x128x128, .i32⟩
  | 42 => ⟨S8x128x128, .i32⟩
  | 43 => ⟨S8x128x128, .i32⟩
  | 44 => ⟨S_, .i32⟩
  | 45 => ⟨S8x128x128, .i32⟩
  | 46 => ⟨S8x128x128, .i1⟩
  | 47 => ⟨S_, .i32⟩
  | 48 => ⟨S8x128x128, .i32⟩
  | 49 => ⟨S8x128x128, .i1⟩
  | 50 => ⟨S8x128x128, .i1⟩
  | 51 => ⟨S_, .i32⟩
  | 52 => ⟨S8x128x128, .i32⟩
  | 53 => ⟨S8x128x128, .i1⟩
  | 54 => ⟨S8x128x128, .i1⟩
  | 55 => ⟨S_, .i32⟩
  | 56 => ⟨S8x128x128, .i32⟩
  | 57 => ⟨S8x128x128, .i1⟩
  | 58 => ⟨S8x128x128, .i1⟩
  | 59 => ⟨S8x128x128, .f32⟩
  | 60 => ⟨S_, .i32⟩
  | 61 => ⟨S_, .i32⟩
  | 62 => ⟨S_, .i32⟩
  | 63 => ⟨S8x128x128, .i32⟩
  | 64 => ⟨S8x128x128, .i32⟩
  | 65 => ⟨S_, .i32⟩
  | 66 => ⟨S8x128x128, .i32⟩
  | 67 => ⟨S8x128x128, .i32⟩
  | 68 => ⟨S_, .i32⟩
  | 69 => ⟨S_, .i32⟩
  | 70 => ⟨S_, .i32⟩
  | 71 => ⟨S8x128x128, .i32⟩
  | 72 => ⟨S8x128x128, .i32⟩
  | 73 => ⟨S_, .i32⟩
  | 74 => ⟨S8x128x128, .i32⟩
  | 75 => ⟨S8x128x128, .i32⟩
  | 76 => ⟨S_, .i32⟩
  | 77 => ⟨S8x128x128, .i32⟩
  | 78 => ⟨S8x128x128, .i1⟩
  | 79 => ⟨S_, .i32⟩
  | 80 => ⟨S8x128x128, .i32⟩
  | 81 => ⟨S8x128x128, .i32⟩
  | 82 => ⟨S8x128x128, .i32⟩
  | 83 => ⟨S_, .i32⟩
  | 84 => ⟨S8x128x128, .i32⟩
  | 85 => ⟨S8x128x128, .i1⟩
  | 86 => ⟨S_, .i32⟩
  | 87 => ⟨S8x128x128, .i32⟩
  | 88 => ⟨S8x128x128, .i32⟩
  | 89 => ⟨S8x128x128, .i32⟩
  | 90 => ⟨S8x128x128x1, .i32⟩
  | 91 => ⟨S8x128x128x1, .i32⟩
  | 92 => ⟨S8x128x128x2, .i32⟩
  | 93 => ⟨S8x128x128x128, .f32⟩
  | 94 => ⟨S8x1x128x128, .f32⟩
  | 95 => ⟨S8x128x128x128, .f32⟩
  | 96 => ⟨S8x128x128x128, .f32⟩
  | 97 => ⟨S_, .i32⟩
  | 98 => ⟨S8x128x128, .i32⟩
  | 99 => ⟨S8x128x128, .i1⟩
  | 100 => ⟨S_, .i32⟩
  | 101 => ⟨S8x128x128, .i32⟩
  | 102 => ⟨S8x128x128, .i1⟩
  | 103 => ⟨S8x128x128, .i1⟩
  | 104 => ⟨S_, .i32⟩
  | 105 => ⟨S8x128x128, .i32⟩
  | 106 => ⟨S8x128x128, .i1⟩
  | 107 => ⟨S8x128x128, .i1⟩
  | 108 => ⟨S_, .i32⟩
  | 109 => ⟨S8x128x128, .i32⟩
  | 110 => ⟨S8x128x128, .i1⟩
  | 111 => ⟨S8x128x128, .i1⟩
  | 112 => ⟨S8x128x128, .f32⟩
  | 113 => ⟨S_, .i32⟩
  | 114 => ⟨S_, .i32⟩
  | 115 => ⟨S_, .i32⟩
  | 116 => ⟨S8x128x128, .i32⟩
  | 117 => ⟨S8x128x128, .i32⟩
  | 118 => ⟨S_, .i32⟩
  | 119 => ⟨S8x128x128, .i32⟩
  | 120 => ⟨S8x128x128, .i32⟩
  | 121 => ⟨S_, .i32⟩
  | 122 => ⟨S_, .i32⟩
  | 123 => ⟨S_, .i32⟩
  | 124 => ⟨S8x128x128, .i32⟩
  | 125 => ⟨S8x128x128, .i32⟩
  | 126 => ⟨S_, .i32⟩
  | 127 => ⟨S8x128x128, .i32⟩
  | _ => ⟨S8x128x128x128, .f32⟩

abbrev hbmTy0_1 (i : Nat) : BufTy := match i % 128 with
  | 0 => ⟨S8x128x128, .i32⟩
  | 1 => ⟨S_, .i32⟩
  | 2 => ⟨S8x128x128, .i32⟩
  | 3 => ⟨S8x128x128, .i1⟩
  | 4 => ⟨S_, .i32⟩
  | 5 => ⟨S8x128x128, .i32⟩
  | 6 => ⟨S8x128x128, .i32⟩
  | 7 => ⟨S8x128x128, .i32⟩
  | 8 => ⟨S_, .i32⟩
  | 9 => ⟨S8x128x128, .i32⟩
  | 10 => ⟨S8x128x128, .i1⟩
  | 11 => ⟨S_, .i32⟩
  | 12 => ⟨S8x128x128, .i32⟩
  | 13 => ⟨S8x128x128, .i32⟩
  | 14 => ⟨S8x128x128, .i32⟩
  | 15 => ⟨S8x128x128x1, .i32⟩
  | 16 => ⟨S8x128x128x1, .i32⟩
  | 17 => ⟨S8x128x128x2, .i32⟩
  | 18 => ⟨S8x128x128x128, .f32⟩
  | 19 => ⟨S8x1x128x128, .f32⟩
  | 20 => ⟨S8x128x128x128, .f32⟩
  | 21 => ⟨S8x128x128x128, .f32⟩
  | 22 => ⟨S_, .i32⟩
  | 23 => ⟨S8x128x128, .i32⟩
  | 24 => ⟨S8x128x128, .i1⟩
  | 25 => ⟨S_, .i32⟩
  | 26 => ⟨S8x128x128, .i32⟩
  | 27 => ⟨S8x128x128, .i1⟩
  | 28 => ⟨S8x128x128, .i1⟩
  | 29 => ⟨S_, .i32⟩
  | 30 => ⟨S8x128x128, .i32⟩
  | 31 => ⟨S8x128x128, .i1⟩
  | 32 => ⟨S8x128x128, .i1⟩
  | 33 => ⟨S_, .i32⟩
  | 34 => ⟨S8x128x128, .i32⟩
  | 35 => ⟨S8x128x128, .i1⟩
  | 36 => ⟨S8x128x128, .i1⟩
  | 37 => ⟨S8x128x128, .f32⟩
  | 38 => ⟨S_, .i32⟩
  | 39 => ⟨S_, .i32⟩
  | 40 => ⟨S_, .i32⟩
  | 41 => ⟨S8x128x128, .i32⟩
  | 42 => ⟨S8x128x128, .i32⟩
  | 43 => ⟨S_, .i32⟩
  | 44 => ⟨S8x128x128, .i32⟩
  | 45 => ⟨S8x128x128, .i32⟩
  | 46 => ⟨S_, .i32⟩
  | 47 => ⟨S_, .i32⟩
  | 48 => ⟨S_, .i32⟩
  | 49 => ⟨S8x128x128, .i32⟩
  | 50 => ⟨S8x128x128, .i32⟩
  | 51 => ⟨S_, .i32⟩
  | 52 => ⟨S8x128x128, .i32⟩
  | 53 => ⟨S8x128x128, .i32⟩
  | 54 => ⟨S_, .i32⟩
  | 55 => ⟨S8x128x128, .i32⟩
  | 56 => ⟨S8x128x128, .i1⟩
  | 57 => ⟨S_, .i32⟩
  | 58 => ⟨S8x128x128, .i32⟩
  | 59 => ⟨S8x128x128, .i32⟩
  | 60 => ⟨S8x128x128, .i32⟩
  | 61 => ⟨S_, .i32⟩
  | 62 => ⟨S8x128x128, .i32⟩
  | 63 => ⟨S8x128x128, .i1⟩
  | 64 => ⟨S_, .i32⟩
  | 65 => ⟨S8x128x128, .i32⟩
  | 66 => ⟨S8x128x128, .i32⟩
  | 67 => ⟨S8x128x128, .i32⟩
  | 68 => ⟨S8x128x128x1, .i32⟩
  | 69 => ⟨S8x128x128x1, .i32⟩
  | 70 => ⟨S8x128x128x2, .i32⟩
  | 71 => ⟨S8x128x128x128, .f32⟩
  | 72 => ⟨S8x1x128x128, .f32⟩
  | 73 => ⟨S8x128x128x128, .f32⟩
  | 74 => ⟨S8x128x128x128, .f32⟩
  | 75 => ⟨S_, .i32⟩
  | 76 => ⟨S8x128x128, .i32⟩
  | 77 => ⟨S8x128x128, .i1⟩
  | 78 => ⟨S_, .i32⟩
  | 79 => ⟨S8x128x128, .i32⟩
  | 80 => ⟨S8x128x128, .i1⟩
  | 81 => ⟨S8x128x128, .i1⟩
  | 82 => ⟨S_, .i32⟩
  | 83 => ⟨S8x128x128, .i32⟩
  | 84 => ⟨S8x128x128, .i1⟩
  | 85 => ⟨S8x128x128, .i1⟩
  | 86 => ⟨S_, .i32⟩
  | 87 => ⟨S8x128x128, .i32⟩
  | 88 => ⟨S8x128x128, .i1⟩
  | 89 => ⟨S8x128x128, .i1⟩
  | 90 => ⟨S8x128x128, .f32⟩
  | 91 => ⟨S_, .i32⟩
  | 92 => ⟨S_, .i32⟩
  | 93 => ⟨S_, .i32⟩
  | 94 => ⟨S8x128x128, .i32⟩
  | 95 => ⟨S8x128x128, .i32⟩
  | 96 => ⟨S_, .i32⟩
  | 97 => ⟨S8x128x128, .i32⟩
  | 98 => ⟨S8x128x128, .i32⟩
  | 99 => ⟨S_, .i32⟩
  | 100 => ⟨S_, .i32⟩
  | 101 => ⟨S_, .i32⟩
  | 102 => ⟨S8x128x128, .i32⟩
  | 103 => ⟨S8x128x128, .i32⟩
  | 104 => ⟨S_, .i32⟩
  | 105 => ⟨S8x128x128, .i32⟩
  | 106 => ⟨S8x128x128, .i32⟩
  | 107 => ⟨S_, .i32⟩
  | 108 => ⟨S8x128x128, .i32⟩
  | 109 => ⟨S8x128x128, .i1⟩
  | 110 => ⟨S_, .i32⟩
  | 111 => ⟨S8x128x128, .i32⟩
  | 112 => ⟨S8x128x128, .i32⟩
  | 113 => ⟨S8x128x128, .i32⟩
  | 114 => ⟨S_, .i32⟩
  | 115 => ⟨S8x128x128, .i32⟩
  | 116 => ⟨S8x128x128, .i1⟩
  | 117 => ⟨S_, .i32⟩
  | 118 => ⟨S8x128x128, .i32⟩
  | 119 => ⟨S8x128x128, .i32⟩
  | 120 => ⟨S8x128x128, .i32⟩
  | 121 => ⟨S8x128x128x1, .i32⟩
  | 122 => ⟨S8x128x128x1, .i32⟩
  | 123 => ⟨S8x128x128x2, .i32⟩
  | 124 => ⟨S8x128x128x128, .f32⟩
  | 125 => ⟨S8x1x128x128, .f32⟩
  | 126 => ⟨S8x128x128x128, .f32⟩
  | 127 => ⟨S8x128x128x128, .f32⟩
  | _ => ⟨S8x128x128x128, .f32⟩

abbrev hbmTy0_2 (i : Nat) : BufTy := match i % 128 with
  | 0 => ⟨S8x128x128, .f32⟩
  | 1 => ⟨S8x1x128x128, .f32⟩
  | 2 => ⟨S8x128x128x128, .f32⟩
  | 3 => ⟨S8x128x128x128, .f32⟩
  | 4 => ⟨S8x128x128, .f32⟩
  | 5 => ⟨S8x1x128x128, .f32⟩
  | 6 => ⟨S8x128x128x128, .f32⟩
  | 7 => ⟨S8x128x128x128, .f32⟩
  | 8 => ⟨S8x128x128x128, .f32⟩
  | 9 => ⟨S8x128x128, .f32⟩
  | 10 => ⟨S8x1x128x128, .f32⟩
  | 11 => ⟨S8x128x128x128, .f32⟩
  | 12 => ⟨S8x128x128x128, .f32⟩
  | 13 => ⟨S8x128x128x128, .f32⟩
  | 14 => ⟨S8x128x128, .f32⟩
  | 15 => ⟨S8x1x128x128, .f32⟩
  | 16 => ⟨S8x128x128x128, .f32⟩
  | 17 => ⟨S8x128x128x128, .f32⟩
  | 18 => ⟨S8x128x128x128, .f32⟩
  | _ => ⟨S8x128x128x128, .f32⟩

abbrev hbmTy (i : Nat) : BufTy := match i / 128 with
  | 0 => hbmTy0_0 i
  | 1 => hbmTy0_1 i
  | 2 => hbmTy0_2 i
  | _ => ⟨S8x128x128x128, .f32⟩

abbrev bufTy : (tb : Table) → Fin (tcTables nBuf tb) → BufTy
  | .hbm, ⟨i, _⟩ => hbmTy i
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_12 : Ref sig .tc := ⟨.hbm, 60, rfl⟩
abbrev main_c_13 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v44 : Ref sig .tc := ⟨.hbm, 67, rfl⟩
abbrev main_c_14 : Ref sig .tc := ⟨.hbm, 68, rfl⟩
abbrev main_c_15 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v45 : Ref sig .tc := ⟨.hbm, 75, rfl⟩
abbrev main_c_16 : Ref sig .tc := ⟨.hbm, 76, rfl⟩
abbrev main_v46 : Ref sig .tc := ⟨.hbm, 77, rfl⟩
abbrev main_v47 : Ref sig .tc := ⟨.hbm, 78, rfl⟩
abbrev main_c_17 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_18 : Ref sig .tc := ⟨.hbm, 83, rfl⟩
abbrev main_v51 : Ref sig .tc := ⟨.hbm, 84, rfl⟩
abbrev main_v52 : Ref sig .tc := ⟨.hbm, 85, rfl⟩
abbrev main_c_19 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_20 : Ref sig .tc := ⟨.hbm, 97, rfl⟩
abbrev main_v63 : Ref sig .tc := ⟨.hbm, 98, rfl⟩
abbrev main_v64 : Ref sig .tc := ⟨.hbm, 99, rfl⟩
abbrev main_c_21 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_22 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_23 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_24 : Ref sig .tc := ⟨.hbm, 113, rfl⟩
abbrev main_c_25 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_v75 : Ref sig .tc := ⟨.hbm, 120, rfl⟩
abbrev main_c_26 : Ref sig .tc := ⟨.hbm, 121, rfl⟩
abbrev main_c_27 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v76 : Ref sig .tc := ⟨.hbm, 128, rfl⟩
abbrev main_c_28 : Ref sig .tc := ⟨.hbm, 129, rfl⟩
abbrev main_v77 : Ref sig .tc := ⟨.hbm, 130, rfl⟩
abbrev main_v78 : Ref sig .tc := ⟨.hbm, 131, rfl⟩
abbrev main_c_29 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_30 : Ref sig .tc := ⟨.hbm, 136, rfl⟩
abbrev main_v82 : Ref sig .tc := ⟨.hbm, 137, rfl⟩
abbrev main_v83 : Ref sig .tc := ⟨.hbm, 138, rfl⟩
abbrev main_c_31 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c_32 : Ref sig .tc := ⟨.hbm, 150, rfl⟩
abbrev main_v94 : Ref sig .tc := ⟨.hbm, 151, rfl⟩
abbrev main_v95 : Ref sig .tc := ⟨.hbm, 152, rfl⟩
abbrev main_c_33 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_34 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_c_35 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_c_36 : Ref sig .tc := ⟨.hbm, 166, rfl⟩
abbrev main_c_37 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_v106 : Ref sig .tc := ⟨.hbm, 173, rfl⟩
abbrev main_c_38 : Ref sig .tc := ⟨.hbm, 174, rfl⟩
abbrev main_c_39 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_v107 : Ref sig .tc := ⟨.hbm, 181, rfl⟩
abbrev main_c_40 : Ref sig .tc := ⟨.hbm, 182, rfl⟩
abbrev main_v108 : Ref sig .tc := ⟨.hbm, 183, rfl⟩
abbrev main_v109 : Ref sig .tc := ⟨.hbm, 184, rfl⟩
abbrev main_c_41 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_c_42 : Ref sig .tc := ⟨.hbm, 189, rfl⟩
abbrev main_v113 : Ref sig .tc := ⟨.hbm, 190, rfl⟩
abbrev main_v114 : Ref sig .tc := ⟨.hbm, 191, rfl⟩
abbrev main_c_43 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_c_44 : Ref sig .tc := ⟨.hbm, 203, rfl⟩
abbrev main_v125 : Ref sig .tc := ⟨.hbm, 204, rfl⟩
abbrev main_v126 : Ref sig .tc := ⟨.hbm, 205, rfl⟩
abbrev main_c_45 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_c_46 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_c_47 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_c_48 : Ref sig .tc := ⟨.hbm, 219, rfl⟩
abbrev main_c_49 : Ref sig .tc := ⟨.hbm, 220, rfl⟩
abbrev main_call6_v0 : Ref sig .tc := ⟨.hbm, 221, rfl⟩
abbrev main_call6_v1 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_v137 : Ref sig .tc := ⟨.hbm, 226, rfl⟩
abbrev main_c_50 : Ref sig .tc := ⟨.hbm, 227, rfl⟩
abbrev main_c_51 : Ref sig .tc := ⟨.hbm, 228, rfl⟩
abbrev main_call7_v0 : Ref sig .tc := ⟨.hbm, 229, rfl⟩
abbrev main_call7_v1 : Ref sig .tc := ⟨.hbm, 230, rfl⟩
abbrev main_call7_v2 : Ref sig .tc := ⟨.hbm, 231, rfl⟩
abbrev main_call7_v3 : Ref sig .tc := ⟨.hbm, 232, rfl⟩
abbrev main_call7_v4 : Ref sig .tc := ⟨.hbm, 233, rfl⟩
abbrev main_v138 : Ref sig .tc := ⟨.hbm, 234, rfl⟩
abbrev main_c_52 : Ref sig .tc := ⟨.hbm, 235, rfl⟩
abbrev main_v139 : Ref sig .tc := ⟨.hbm, 236, rfl⟩
abbrev main_v140 : Ref sig .tc := ⟨.hbm, 237, rfl⟩
abbrev main_c_53 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_c_54 : Ref sig .tc := ⟨.hbm, 242, rfl⟩
abbrev main_v144 : Ref sig .tc := ⟨.hbm, 243, rfl⟩
abbrev main_v145 : Ref sig .tc := ⟨.hbm, 244, rfl⟩
abbrev main_c_55 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩

abbrev nD : Nat := 1
abbrev τ : Topo := Topo.v7x

variable {F : FTy → Type} [FloatOps F]

class Facts₀ : Prop where
  slices_S8x128x128x2_S8x128x128x1_0_0_0_0 : S8x128x128x2.Slices ![0, 0, 0, 0] S8x128x128x1
  shapeCasts_S8x128x128x1_S8x128x128 : S8x128x128x1.ShapeCasts S8x128x128
  slices_S8x128x128x2_S8x128x128x1_0_0_0_1 : S8x128x128x2.Slices ![0, 0, 0, 1] S8x128x128x1
  bcast_S_S8x128x128 : S_.BroadcastsInDim S8x128x128 (![] : Fin 0 → Fin S8x128x128.rank)
  bcast_S8x128x128_S8x128x128x1_0_1_2 : S8x128x128.BroadcastsInDim S8x128x128x1 (![0, 1, 2] : Fin 3 → Fin S8x128x128x1.rank)
  concatenates_S8x128x128x1_S8x128x128x1_S8x128x128x2_d3 : Shape.Concatenates [S8x128x128x1, S8x128x128x1] S8x128x128x2 3
  bcast_S8x128x128_S8x1x128x128_0_2_3 : S8x128x128.BroadcastsInDim S8x1x128x128 (![0, 2, 3] : Fin 3 → Fin S8x1x128x128.rank)
  bcast_S8x1x128x128_S8x128x128x128_0_1_2_3 : S8x1x128x128.BroadcastsInDim S8x128x128x128 (![0, 1, 2, 3] : Fin 4 → Fin S8x128x128x128.rank)
  gather_S8x128x128x128_S8x128x128x2_S8x128x128x128_1_23_0_0_23_3_112811_wf : GatherDims.WF S8x128x128x128 S8x128x128x2 S8x128x128x128 [1] [2, 3] [0] [2, 3] [0] 3 ![1, 128, 1, 1]

variable [Facts₀]

def gather_S8x128x128x128_S8x128x128x2_S8x128x128x128_1_23_0_0_23_3_112811 : GatherDims S8x128x128x128 S8x128x128x2 S8x128x128x128 where
  offsetDims := [1]
  collapsedSliceDims := [2, 3]
  operandBatchingDims := [0]
  startIndicesBatchingDims := [0]
  startIndexMap := [2, 3]
  indexVectorDim := 3
  sliceSizes := ![1, 128, 1, 1]
  wf := gather_S8x128x128x128_S8x128x128x2_S8x128x128x128_1_23_0_0_23_3_112811_wf

class Facts : Prop extends Facts₀ where

variable [Facts]
-- ==== Proof.Spec.lean ====
/-
  Bilinear sampling of one image plane at one normalized coordinate pair, as two formulas over the extended reals.

  A normalized coordinate g is mapped to the pixel position p = (g + 1) · ½ · 127; its floor ⌊p⌋ and ⌊p⌋ + 1 are the
  two neighbouring pixels, with weights 1 − (p − ⌊p⌋) and p − ⌊p⌋. Both programs turn the two floors into 32-bit
  integers by the same conversion, so only the integers' values as words matter below.

  `kform` is the sum over all 128 × 128 pixels of the image times a column selector times a row selector, each selector
  being "weight where the pixel's number is the neighbour's, else zero" (two neighbours per axis, added).
  `spec` is the four-tap form: for each of the four (row, column) neighbour pairs, the image at the pair clipped
  into [0, 127], times an in-range indicator, times the product of the two weights.
-/
import Idealize.ShloMosaic.PureOps.Ideal
import Idealize.ShloMosaic.Lib.ValueIdx

noncomputable section

namespace Cert.Bilinear

open Idealize.ShloMosaic Idealize.ShloMosaic.ValueIdx

abbrev one : EReal := Ideal.ofBits .f32 0x3F800000#32
abbrev half : EReal := Ideal.ofBits .f32 0x3F000000#32
abbrev c127 : EReal := Ideal.ofBits .f32 0x42FE0000#32
abbrev zero : EReal := Ideal.ofBits .f32 0x00000000#32

/-- The pixel position of a normalized coordinate. -/
def pos (g : EReal) : EReal := (g + one) * half * c127
/-- Its floor. -/
def flo (g : EReal) : EReal := Ideal.liftRound Int.floor (pos g)
/-- The weight of the upper neighbour: the fractional part of the position. -/
def frac (g : EReal) : EReal := pos g - flo g
/-- The weight of the lower neighbour. -/
def cofrac (g : EReal) : EReal := one - frac g
/-- The lower neighbour's number, as a word. -/
def lo (g : EReal) : BitVec 32 := Ideal.fptosi 32 (flo g)
/-- The upper neighbour's number, as a word. -/
def hi (g : EReal) : BitVec 32 := Ideal.fptosi 32 (flo g + one)

/-- The selector: the weight `a` where pixel number `w` is the neighbour `v`, else zero. -/
def pick (w : Fin 128) (v : BitVec 32) (a : EReal) : EReal :=
  Scalar.select (IntOp.cmpi .eq (BitVec.ofNat 32 w.val) v) a zero

/-- The selector-sum form: contract the columns with the column selector, then the rows with the row selector. -/
def kform (img : Fin 128 → Fin 128 → EReal) (gx gy : EReal) : EReal :=
  ∑ h : Fin 128, (∑ w : Fin 128, img h w * (pick w (lo gx) (cofrac gx) + pick w (hi gx) (frac gx)))
    * (pick h (lo gy) (cofrac gy) + pick h (hi gy) (frac gy))

/-- Both neighbour numbers lie in [0, 127] (signed), as a bit. -/
def inb (yi xi : BitVec 32) : BitVec 1 :=
  IntOp.andi (IntOp.andi (IntOp.andi (IntOp.cmpi .sge yi 0#32) (IntOp.cmpi .sle yi 127#32)) (IntOp.cmpi .sge xi 0#32))
    (IntOp.cmpi .sle xi 127#32)

/-- A neighbour number clipped into [0, 127] (then, were it negative, wrapped by 128: it never is). -/
def clipv (v : BitVec 32) : BitVec 32 :=
  Scalar.select (IntOp.cmpi .slt (IntOp.minsi 127#32 (IntOp.maxsi 0#32 v)) 0#32)
    (IntOp.addi (IntOp.minsi 127#32 (IntOp.maxsi 0#32 v)) 128#32) (IntOp.minsi 127#32 (IntOp.maxsi 0#32 v))

/-- The pixel the clipped number addresses. -/
def gidx (v : BitVec 32) : Fin 128 := ⟨min (clipv v).toInt.toNat 127, by omega⟩

/-- One tap: the image at the clipped neighbour pair, masked by the in-range bit, times the two weights' product. -/
def tap (img : Fin 128 → Fin 128 → EReal) (yi xi : BitVec 32) (wy wx : EReal) : EReal :=
  (img (gidx yi) (gidx xi) * FloatOps.uitofp (F := Ideal) .f32 (inb yi xi)) * (wy * wx)

/-- The four-tap form. -/
def spec (img : Fin 128 → Fin 128 → EReal) (gx gy : EReal) : EReal :=
  tap img (lo gy) (lo gx) (cofrac gy) (cofrac gx) + tap img (lo gy) (hi gx) (cofrac gy) (frac gx)
    + tap img (hi gy) (lo gx) (frac gy) (cofrac gx) + tap img (hi gy) (hi gx) (frac gy) (frac gx)

/-- The image array and the coordinate array. -/
abbrev SImg : Shape := ⟨4, ![8, 128, 128, 128]⟩
abbrev SGrid : Shape := ⟨4, ![8, 128, 128, 2]⟩

/-- The sample of batch `b`, channel `c` at output pixel (r, wo): plane (b, c) of the image at the coordinate pair
    the grid holds at (b, r, wo). -/
def specAt (x0 : SImg.Idx → EReal) (x1 : SGrid.Idx → EReal) (b : Fin 8) (c r wo : Fin 128) : EReal :=
  spec (fun h w => x0 (ix4 b c h w)) (x1 (ix4 b r wo (0 : Fin 2))) (x1 (ix4 b r wo (1 : Fin 2)))

/-- The same in the selector-sum form. -/
def kformAt (x0 : SImg.Idx → EReal) (x1 : SGrid.Idx → EReal) (b : Fin 8) (c r wo : Fin 128) : EReal :=
  kform (fun h w => x0 (ix4 b c h w)) (x1 (ix4 b r wo (0 : Fin 2))) (x1 (ix4 b r wo (1 : Fin 2)))

/-- The whole result array. -/
def result (x0 : SImg.Idx → EReal) (x1 : SGrid.Idx → EReal) : SImg.Idx → EReal :=
  fun i => specAt x0 x1 (i 0) (i 1) (i 2) (i 3)

end Cert.Bilinear

end
-- ==== Proof.Alg.lean ====
import proofs.«118315_j54039278519070_2_alg».proof.Proof.Spec
import Mathlib.Data.EReal.Basic
import Mathlib.Algebra.BigOperators.Ring.Finset
import Mathlib.Tactic.Ring
import Mathlib.Tactic.NormNum

noncomputable section

namespace Cert.Bilinear

open Idealize.ShloMosaic Idealize.ShloMosaic.ValueIdx

namespace Alg

/-! ### Words that are pixel numbers -/

/-- A word is a pixel number: read as a signed integer it lies in [0, 127]. -/
def inr (v : BitVec 32) : Prop := 0 ≤ v.toInt ∧ v.toInt ≤ 127

instance (v : BitVec 32) : Decidable (inr v) := by unfold inr; infer_instance

/-- The word of a pixel number reads back as that number. -/
theorem toInt_ofNat_fin (w : Fin 128) : (BitVec.ofNat 32 w.val).toInt = (w.val : Int) := by
  have hw := w.isLt
  rw [BitVec.toInt_eq_toNat_cond, BitVec.toNat_ofNat]
  have : w.val % 2 ^ 32 = w.val := Nat.mod_eq_of_lt (by omega)
  rw [this]
  split <;> omega

/-- The word of a pixel number is a pixel number. -/
theorem inr_ofNat_fin (w : Fin 128) : inr (BitVec.ofNat 32 w.val) := by
  have hw := w.isLt
  unfold inr
  rw [toInt_ofNat_fin]
  omega

/-- Clipping leaves a pixel number alone. -/
theorem clipv_of_inr {v : BitVec 32} (hv : inr v) : clipv v = v := by
  obtain ⟨h0, h1⟩ := hv
  have z0 : (0#32).toInt = 0 := by decide
  have z1 : (127#32).toInt = 127 := by decide
  have e1 : IntOp.maxsi 0#32 v = v := by
    unfold IntOp.maxsi
    rw [if_neg]
    rw [BitVec.slt_iff_toInt_lt, z0]
    omega
  have e2 : IntOp.minsi 127#32 v = v := by
    unfold IntOp.minsi
    rw [if_neg]
    rw [BitVec.slt_iff_toInt_lt, z1]
    omega
  have e3 : IntOp.cmpi .slt v 0#32 ≠ 1 := by
    unfold IntOp.cmpi
    have : v.slt 0#32 = false := by
      rw [BitVec.slt_eq_decide, z0]
      exact decide_eq_false (by omega)
    simp [this]
  unfold clipv Scalar.select
  rw [e1, e2, if_neg e3]

/-- A pixel number is the word of the pixel it addresses. -/
theorem ofNat_gidx {v : BitVec 32} (hv : inr v) : BitVec.ofNat 32 (gidx v).val = v := by
  have hc := clipv_of_inr hv
  obtain ⟨h0, h1⟩ := hv
  apply BitVec.eq_of_toInt_eq
  have hlt : (gidx v).val < 128 := (gidx v).isLt
  rw [toInt_ofNat_fin]
  show ((min (clipv v).toInt.toNat 127 : Nat) : Int) = v.toInt
  rw [hc]
  omega

/-- The pixel addressed by the word of a pixel number is that pixel. -/
theorem gidx_ofNat_fin (w : Fin 128) : gidx (BitVec.ofNat 32 w.val) = w := by
  have hw := w.isLt
  apply Fin.ext
  show min (clipv (BitVec.ofNat 32 w.val)).toInt.toNat 127 = w.val
  rw [clipv_of_inr (inr_ofNat_fin w), toInt_ofNat_fin]
  omega

/-- A pixel's word is the neighbour's word exactly when the neighbour is a pixel number addressing that pixel. -/
theorem ofNat_eq_iff (w : Fin 128) (v : BitVec 32) : BitVec.ofNat 32 w.val = v ↔ inr v ∧ w = gidx v := by
  constructor
  · intro h
    subst h
    exact ⟨inr_ofNat_fin w, (gidx_ofNat_fin w).symm⟩
  · rintro ⟨hv, rfl⟩
    exact ofNat_gidx hv

/-- The in-range bit, as a number, is the product of the two coordinates' indicators. -/
theorem inb_toNat (yi xi : BitVec 32) :
    (((inb yi xi).toNat : ℝ)) = (if inr yi then (1 : ℝ) else 0) * (if inr xi then (1 : ℝ) else 0) := by
  have z0 : (0#32).toInt = 0 := by decide
  have z1 : (127#32).toInt = 127 := by decide
  have key : ∀ v : BitVec 32, ((0#32).sle v && v.sle 127#32) = decide (inr v) := by
    intro v
    rw [Bool.eq_iff_iff]
    simp only [Bool.and_eq_true, decide_eq_true_eq, BitVec.sle_iff_toInt_le, z0, z1]
    exact Iff.rfl
  unfold inb IntOp.andi IntOp.cmpi
  simp only [BitVec.ofBool_and_ofBool, BitVec.toNat_ofBool, Bool.and_assoc]
  rw [← Bool.and_assoc, key yi, ← Bool.and_assoc, Bool.and_assoc (decide (inr yi)), key xi]
  by_cases hy : inr yi <;> by_cases hx : inr xi <;> simp [hy, hx]

/-! ### The selector over the reals -/

/-- The real selector: the weight where the pixel's word is the neighbour's, else zero. -/
def sel (w : Fin 128) (v : BitVec 32) (a : ℝ) : ℝ := if BitVec.ofNat 32 w.val = v then a else 0

/-- The indicator of a pixel number. -/
def ind (v : BitVec 32) : ℝ := if inr v then 1 else 0

/-- Contracting a function of the pixel with one selector keeps the value at the neighbour's pixel when the neighbour
    is a pixel number, and nothing otherwise. -/
theorem sum_sel (f : Fin 128 → ℝ) (v : BitVec 32) (a : ℝ) :
    ∑ w : Fin 128, f w * sel w v a = ind v * f (gidx v) * a := by
  unfold sel ind
  by_cases hv : inr v
  · rw [if_pos hv]
    have key : ∀ w : Fin 128,
        f w * (if BitVec.ofNat 32 w.val = v then a else 0) = if w = gidx v then f w * a else 0 := by
      intro w
      by_cases hw : w = gidx v
      · rw [if_pos hw, if_pos ((ofNat_eq_iff w v).mpr ⟨hv, hw⟩)]
      · rw [if_neg hw, if_neg (fun h => hw ((ofNat_eq_iff w v).mp h).2), mul_zero]
    simp only [key]
    rw [Finset.sum_ite_eq' Finset.univ (gidx v), if_pos (Finset.mem_univ _), one_mul]
  · rw [if_neg hv]
    have key : ∀ w : Fin 128, f w * (if BitVec.ofNat 32 w.val = v then a else 0) = 0 := by
      intro w
      rw [if_neg (fun h => hv ((ofNat_eq_iff w v).mp h).1), mul_zero]
    simp only [key, Finset.sum_const_zero, zero_mul]

/-- The same with the two selectors of one axis added. -/
theorem sum_sel2 (f : Fin 128 → ℝ) (v₁ v₂ : BitVec 32) (a₁ a₂ : ℝ) :
    ∑ w : Fin 128, f w * (sel w v₁ a₁ + sel w v₂ a₂)
      = ind v₁ * f (gidx v₁) * a₁ + ind v₂ * f (gidx v₂) * a₂ := by
  simp only [mul_add, Finset.sum_add_distrib, sum_sel]

/-! ### Everything is a real -/

theorem zero_eq : zero = ((0 : ℝ) : EReal) := by
  show Ideal.ofBits .f32 0x00000000#32 = _
  simp [Ideal.ofBits, Ideal.ieee]

theorem one_real : ∃ r : ℝ, one = (r : EReal) := by
  refine ⟨1, ?_⟩
  show Ideal.ofBits .f32 0x3F800000#32 = _
  simp [Ideal.ofBits, Ideal.ieee, -EReal.coe_mul]; norm_num

theorem half_real : ∃ r : ℝ, half = (r : EReal) := by
  refine ⟨1 / 2, ?_⟩
  show Ideal.ofBits .f32 0x3F000000#32 = _
  simp [Ideal.ofBits, Ideal.ieee, -EReal.coe_mul]; norm_num

theorem c127_real : ∃ r : ℝ, c127 = (r : EReal) := by
  refine ⟨127, ?_⟩
  show Ideal.ofBits .f32 0x42FE0000#32 = _
  simp [Ideal.ofBits, Ideal.ieee, -EReal.coe_mul]; norm_num

/-- The two weights of a finite coordinate are finite. -/
theorem weights_real (r : ℝ) : ∃ f c : ℝ, frac (r : EReal) = (f : EReal) ∧ cofrac (r : EReal) = (c : EReal) := by
  obtain ⟨o, ho⟩ := one_real
  obtain ⟨t, ht⟩ := half_real
  obtain ⟨k, hk⟩ := c127_real
  have hp : pos (r : EReal) = (((r + o) * t * k : ℝ) : EReal) := by
    unfold pos
    rw [ho, ht, hk, ← EReal.coe_add, ← EReal.coe_mul, ← EReal.coe_mul]
  have hf : frac (r : EReal) = ((((r + o) * t * k) - ((⌊(r + o) * t * k⌋ : ℤ) : ℝ) : ℝ) : EReal) := by
    unfold frac flo
    rw [hp, Ideal.liftRound_coe, ← EReal.coe_sub]
  have hc : cofrac (r : EReal)
      = ((o - (((r + o) * t * k) - ((⌊(r + o) * t * k⌋ : ℤ) : ℝ)) : ℝ) : EReal) := by
    unfold cofrac
    rw [hf, ho, ← EReal.coe_sub]
  exact ⟨_, _, hf, hc⟩

/-- A finite sum of reals, taken in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The selector of a real weight is the real selector. -/
theorem pick_coe (w : Fin 128) (v : BitVec 32) (a : ℝ) : pick w v (a : EReal) = ((sel w v a : ℝ) : EReal) := by
  have hc : IntOp.cmpi .eq (BitVec.ofNat 32 w.val) v = BitVec.ofBool (BitVec.ofNat 32 w.val == v) := rfl
  unfold pick sel Scalar.select
  rw [hc, zero_eq]
  by_cases h : BitVec.ofNat 32 w.val = v
  · have hb : (BitVec.ofNat 32 w.val == v) = true := by rw [beq_iff_eq]; exact h
    rw [hb, if_pos h, if_pos (by decide)]
  · have hb : (BitVec.ofNat 32 w.val == v) = false := by rw [beq_eq_false_iff_ne]; exact h
    rw [hb, if_neg h, if_neg (by decide)]

/-- One tap on a real image with real weights is a real. -/
theorem tap_coe (I : Fin 128 → Fin 128 → ℝ) (yi xi : BitVec 32) (wy wx : ℝ) :
    tap (fun h w => ((I h w : ℝ) : EReal)) yi xi (wy : EReal) (wx : EReal)
      = ((I (gidx yi) (gidx xi) * ((inb yi xi).toNat : ℝ) * (wy * wx) : ℝ) : EReal) := by
  show ((I (gidx yi) (gidx xi) : ℝ) : EReal) * (((inb yi xi).toNat : ℝ) : EReal) * ((wy : EReal) * (wx : EReal)) = _
  rw [← EReal.coe_mul, ← EReal.coe_mul, ← EReal.coe_mul]

/-! ### The two forms agree -/

/-- The identity over the reals: contract the columns, then the rows, and multiply out. -/
theorem core_real (I : Fin 128 → Fin 128 → ℝ) (lx hx ly hy : BitVec 32) (cx fx cy fy : ℝ) :
    (∑ h : Fin 128, (∑ w : Fin 128, I h w * (sel w lx cx + sel w hx fx)) * (sel h ly cy + sel h hy fy))
      = I (gidx ly) (gidx lx) * ((inb ly lx).toNat : ℝ) * (cy * cx)
        + I (gidx ly) (gidx hx) * ((inb ly hx).toNat : ℝ) * (cy * fx)
        + I (gidx hy) (gidx lx) * ((inb hy lx).toNat : ℝ) * (fy * cx)
        + I (gidx hy) (gidx hx) * ((inb hy hx).toNat : ℝ) * (fy * fx) := by
  have inner : ∀ h : Fin 128, (∑ w : Fin 128, I h w * (sel w lx cx + sel w hx fx))
      = ind lx * I h (gidx lx) * cx + ind hx * I h (gidx hx) * fx := fun h => sum_sel2 (fun w => I h w) lx hx cx fx
  simp only [inner]
  rw [sum_sel2 (fun h => ind lx * I h (gidx lx) * cx + ind hx * I h (gidx hx) * fx) ly hy cy fy]
  rw [inb_toNat, inb_toNat, inb_toNat, inb_toNat]
  unfold ind
  ring

/-- The same over the extended reals, for a real image, real weights and any four neighbour words. -/
theorem core (I : Fin 128 → Fin 128 → ℝ) (lx hx ly hy : BitVec 32) (cx fx cy fy : ℝ) :
    (∑ h : Fin 128, (∑ w : Fin 128, ((I h w : ℝ) : EReal) * (pick w lx (cx : EReal) + pick w hx (fx : EReal)))
        * (pick h ly (cy : EReal) + pick h hy (fy : EReal)))
      = tap (fun h w => ((I h w : ℝ) : EReal)) ly lx cy cx + tap (fun h w => ((I h w : ℝ) : EReal)) ly hx cy fx
        + tap (fun h w => ((I h w : ℝ) : EReal)) hy lx fy cx + tap (fun h w => ((I h w : ℝ) : EReal)) hy hx fy fx := by
  simp only [pick_coe, tap_coe, ← EReal.coe_add, ← EReal.coe_mul, sum_coe]
  rw [core_real]

end Alg

open Alg

/-- On finite values the selector-sum form is the four-tap form: each selector is nonzero at one pixel number at most,
    so the double sum of image × column selector × row selector splits (distributivity, on reals) into four double
    sums, each of which keeps the one pixel its two neighbours name when both are in [0, 127] and nothing otherwise. -/
theorem kform_eq_spec (img : Fin 128 → Fin 128 → EReal) (gx gy : EReal)
    (himg : ∀ h w, ∃ r : ℝ, img h w = (r : EReal)) (hx : ∃ r : ℝ, gx = (r : EReal)) (hy : ∃ r : ℝ, gy = (r : EReal)) :
    kform img gx gy = spec img gx gy := by
  obtain ⟨rx, rfl⟩ := hx
  obtain ⟨ry, rfl⟩ := hy
  choose I hI using himg
  obtain rfl : img = fun h w => ((I h w : ℝ) : EReal) := funext fun h => funext fun w => hI h w
  obtain ⟨fx, cx, hfx, hcx⟩ := weights_real rx
  obtain ⟨fy, cy, hfy, hcy⟩ := weights_real ry
  unfold kform spec
  rw [hcx, hcy, hfx, hfy]
  exact core I (lo (rx : EReal)) (hi (rx : EReal)) (lo (ry : EReal)) (hi (ry : EReal)) cx fx cy fy

end Cert.Bilinear

end
-- ==== Proof.Finite.lean ====
import proofs.«118315_j54039278519070_2_alg».proof.Defs
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.ValueIdx Idealize.SL.Sem

/-- The scalar shape has exactly one index. -/
instance : Subsingleton Cert.Pre_finite_inputs.S_.Idx := ⟨fun a b => funext fun d => d.elim0⟩

/-- The word 0x7F800000 (exponent all ones, fraction zero, sign clear) reads as +∞. -/
theorem ofBits_inf : Ideal.ofBits .f32 0x7F800000#32 = (⊤ : EReal) := by
  simp [Ideal.ofBits, Ideal.ieee]

/-- An extended real whose absolute value max x (-x) lies strictly below +∞ is a real number:
    at x = +∞ the maximum is +∞, and at x = -∞ its negation is +∞. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a boolean is 1 exactly when the boolean is true. -/
theorem ofBool_eq_one_iff (b : Bool) : BitVec.ofBool b = 1#1 ↔ b = true := by
  cases b <;> decide

/-- One element of the precondition: the ordered comparison |x| < +∞ holding says x is real. -/
theorem real_of_cmp (x : Ideal .f32)
    (h : FloatOps.cmpf (F := Ideal) .olt (FloatOps.hostAbsf x) (FloatOps.ofBits .f32 0x7F800000#32) = 1#1) :
    ∃ r : ℝ, x = (r : EReal) := by
  rw [Ideal.cmpf_def, Ideal.hostAbsf_def, Ideal.absf_def, Ideal.ofBits_def, ofBits_inf] at h
  refine real_of_abs_lt_top x ?_
  simpa [Ideal.cmp, ofBool_eq_one_iff] using h

/-- Under the precondition every entry of both argument arrays is a real number. -/
theorem real_of_pre [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  -- the precondition's scalar result, read at its one index
  have h0 := congrFun (h c) ValueIdx.ix0
  dsimp only [Cert.Pre_finite_inputs.fn, andi] at h0
  -- the final "and" is 1 exactly when both reductions are 1
  obtain ⟨ha, hb⟩ := IntOp.andi_eq_one.1 h0
  refine ⟨fun i => ?_, fun i => ?_⟩
  · -- a reduction by "and" over every axis that is 1 met a 1 at every index
    exact real_of_cmp _ (Host.reduce_andi_all _ _ _ _ _ ha i)
  · exact real_of_cmp _ (Host.reduce_andi_all _ _ _ _ _ hb i)

end Cert.Proof.Finite

end
-- ==== Proof.KernelTrip.lean ====
import proofs.«118315_j54039278519070_2_alg».proof.Proof.Gen.KernelIdeal.Frame
import proofs.«118315_j54039278519070_2_alg».proof.Proof.Spec
import Idealize.ShloMosaic.Lib.Pipeline.Value
import Idealize.ShloMosaic.Lib.ValueIdx
import Idealize.ShloMosaic.Lib.Tactic

noncomputable section

namespace Cert.KernelIdeal.Trip

open Cert.KernelIdeal Cert.KernelIdeal.Gen Idealize.ShloMosaic Idealize.ShloMosaic.TcCoe Idealize.ShloMosaic.ValueIdx Idealize.SL.Sem
open Facts₀ Facts

variable {F : FTy → Type} [FloatOps F]

/-- The loop makes 32 trips. -/
theorem trips_eq : k0_t1_loop.trips = 32 := by
  decide

/-- The column-number vector the body compares against. -/
abbrev numbers : IVec S128x16x128 32 := iota .tc S128x16x128 32 [0] Facts₀.iota_S128x16x128_d0_w32

/-- What trip `k` loads of the image block: its planes 4k … 4k + 3. -/
def ldv (x0 : Vec F S1x128x128x128 .bf16) (k : Fin k0_t1_loop.trips) : Vec F S1x4x128x128 .bf16 :=
  View.ld x0 (Rect.unit (s := S1x128x128x128) (k0_off1 k) S1x4x128x128.size (Gen.k0_off1_inb k))

theorem ldv_apply (x0 : Vec F S1x128x128x128 .bf16) (k : Fin k0_t1_loop.trips) (cl : Fin 4) (h w : Fin 128)
    (hlt : 4 * k.val + cl.val < 128) :
    ldv x0 k (ix4 (0 : Fin 1) cl h w) = x0 (ix4 (0 : Fin 1) (⟨4 * k.val + cl.val, hlt⟩ : Fin 128) h w) := by
  unfold ldv
  show x0 ((Rect.unit (s := S1x128x128x128) (k0_off1 k) S1x4x128x128.size (Gen.k0_off1_inb k)).idx (ix4 (0 : Fin 1) cl h w)) = _
  congr 1
  funext a
  apply Fin.ext
  rw [LoadRect.idx_apply]
  simp only [Rect.off_unit, Rect.stride_unit, Gen.k0_off1_eq]
  match a with
  | ⟨0, _⟩ => rfl
  | ⟨1, _⟩ => show 4 * k.val + 1 * cl.val = 4 * k.val + cl.val; omega
  | ⟨2, _⟩ => show 0 + 1 * h.val = h.val; omega
  | ⟨3, _⟩ => show 0 + 1 * w.val = w.val; omega

/-- The trip that writes output channel `y 1`: channels come in groups of four. -/
def tripOf (y : S1x128x16x128.Idx) : Fin k0_t1_loop.trips :=
  ⟨(y 1).val / 4, by have h : (y 1).val < 128 := (y 1).isLt; rw [trips_eq]; omega⟩

/-- The position of output channel `y 1` inside its group of four. -/
def chanOf (y : S1x128x16x128.Idx) : Fin 4 := ⟨(y 1).val % 4, Nat.mod_lt _ (by decide)⟩

theorem tripOf_eq (y : S1x128x16x128.Idx) (k : Fin k0_t1_loop.trips) (cl : Fin 4) (h : (y 1).val = 4 * k.val + cl.val) :
    tripOf y = k := by
  apply Fin.ext; show (y 1).val / 4 = k.val; have := cl.isLt; omega

theorem chanOf_eq (y : S1x128x16x128.Idx) (k : Fin k0_t1_loop.trips) (cl : Fin 4) (h : (y 1).val = 4 * k.val + cl.val) :
    chanOf y = cl := by
  apply Fin.ext; show (y 1).val % 4 = cl.val; have := cl.isLt; omega

/-- The whole output block as ONE function of its index: at channel `4k + cl` the value trip `k` stores at its
    channel `cl`. -/
def blockFn (v22 : FVec F S16x128 .f32) (v23 : FVec F S16x128 .f32) (v27 : FVec F S16x128 .f32) (v29 : IVec S16x128 32) (v30 : IVec S16x128 32) (v31 : IVec S16x128 32) (v32 : IVec S128x16x128 32) (v33 : IVec S128x16x128 32) (v36 : IVec S128x16x128 1) (v39 : FVec F S128x16x128 .f32) (v40 : FVec F S128x16x128 .f32) (x0 : Vec F S1x128x128x128 .bf16) (y : S1x128x16x128.Idx) : Elt F .f32 :=
  k0_pay1 (F := F) v22 v23 v27 v29 v30 v31 v32 v33 v36 v39 v40 (ldv x0 (tripOf y)) (ix4 (0 : Fin 1) (chanOf y) (y 2) (y 3))

/-- The block function at an index whose channel is `4k + x 1` and whose row and column are those of `x`. -/
theorem blockFn_at (v22 : FVec F S16x128 .f32) (v23 : FVec F S16x128 .f32) (v27 : FVec F S16x128 .f32) (v29 : IVec S16x128 32) (v30 : IVec S16x128 32) (v31 : IVec S16x128 32) (v32 : IVec S128x16x128 32) (v33 : IVec S128x16x128 32) (v36 : IVec S128x16x128 1) (v39 : FVec F S128x16x128 .f32) (v40 : FVec F S128x16x128 .f32) (x0 : Vec F S1x128x128x128 .bf16) (k : Fin k0_t1_loop.trips)
    (x : S1x4x16x128.Idx) (y : S1x128x16x128.Idx)
    (h1 : (y 1).val = 4 * k.val + (x 1).val) (h2 : (y 2).val = (x 2).val) (h3 : (y 3).val = (x 3).val) :
    blockFn v22 v23 v27 v29 v30 v31 v32 v33 v36 v39 v40 x0 y = k0_pay1 (F := F) v22 v23 v27 v29 v30 v31 v32 v33 v36 v39 v40 (ldv x0 k) x := by
  unfold blockFn
  rw [tripOf_eq y k (x 1) h1, chanOf_eq y k (x 1) h1]
  congr 1
  funext a
  match a with
  | ⟨0, _⟩ => exact Subsingleton.elim (α := Fin 1) _ _
  | ⟨1, _⟩ => rfl
  | ⟨2, _⟩ => exact Fin.ext h2
  | ⟨3, _⟩ => exact Fin.ext h3

/-- ONE TRIP's pieces: a single store, at the trip's four output channels, of the payload of the four image planes
    the trip loads. -/
theorem tripL_eq (𝒱 : Variants) (c : Dev nD) (bd : Option 𝒱.V) (i : grid0.Coords) (arg2 : Memref sig .tc .vmem S1x128x128x128 .bf16) (harg2 : arg2.IsWhole) (arg3 : Memref sig .tc .vmem S1x16x128 .f32) (harg3 : arg3.IsWhole) (arg4 : Memref sig .tc .vmem S1x16x128 .f32) (harg4 : arg4.IsWhole) (arg5 : Memref sig .tc .vmem S1x128x16x128 .f32) (harg5 : arg5.IsWhole) (v22 : FVec F S16x128 .f32) (v23 : FVec F S16x128 .f32) (v27 : FVec F S16x128 .f32) (v29 : IVec S16x128 32) (v30 : IVec S16x128 32) (v31 : IVec S16x128 32) (v32 : IVec S128x16x128 32) (v33 : IVec S128x16x128 32) (v36 : IVec S128x16x128 1) (v39 : FVec F S128x16x128 .f32) (v40 : FVec F S128x16x128 .f32)
    (X : BufTy.Contents (Elt F) arg2.view.ty) (k : Fin k0_t1_loop.trips) :
    tripL_k0_t1 (F := F) 𝒱 c bd i arg2 harg2 arg3 harg3 arg4 harg4 arg5 harg5 v22 v23 v27 v29 v30 v31 v32 v33 v36 v39 v40 X k
      = [(⟨Rect.unit (s := S1x128x16x128) (k0_off2 k) S1x4x16x128.size (Gen.k0_off2_inb k),
            k0_pay1 (F := F) v22 v23 v27 v29 v30 v31 v32 v33 v36 v39 v40
              (View.ld (arg2.view.read (Elt F) X) (Rect.unit (s := S1x128x128x128) (k0_off1 k) S1x4x128x128.size (Gen.k0_off1_inb k)))⟩
          : View.Piece (Elt F) S1x128x16x128 .f32)] := by
  unfold tripL_k0_t1 trip_k0_t1
  rfl

theorem zeros3 : (![0, 0, 0] : Fin 3 → Nat) = fun _ => 0 := funext fun a => by
  match a with
  | ⟨0, _⟩ => rfl
  | ⟨1, _⟩ => rfl
  | ⟨2, _⟩ => rfl

/-- The pieces the body's stores leave: the two coordinate blocks are loaded whole, so the values the loop reads
    from before it are the payloads of `x1` and `x2` themselves, and the pieces are those of all the loop's trips
    over the image block `x0`. -/
theorem run_pieces (c : Dev nD) (i : grid0.Coords) (arg2 : Memref sig .tc .vmem S1x128x128x128 .bf16) (harg2 : arg2.IsWhole) (arg3 : Memref sig .tc .vmem S1x16x128 .f32) (harg3 : arg3.IsWhole) (arg4 : Memref sig .tc .vmem S1x16x128 .f32) (harg4 : arg4.IsWhole) (arg5 : Memref sig .tc .vmem S1x128x16x128 .f32) (harg5 : arg5.IsWhole)
    (x0 : Vec F S1x128x128x128 .bf16) (x1 : Vec F S1x16x128 .f32) (x2 : Vec F S1x16x128 .f32) :
    (kernelRun0_A (F := F) c i arg2 harg2 arg3 harg3 arg4 harg4 arg5 harg5 x0 x1 x2).1
      = pb_k0_t1 (F := F) Variants.none c none i arg2 harg2 arg3 harg3 arg4 harg4 arg5 harg5
          (k0_pay6 x1) (k0_pay7 x2) (k0_pay8 x2) (k0_pay9 x1) (k0_pay10 x2) (k0_pay11 x2)
          numbers numbers (k0_pay12 x1) (k0_pay13 x1) k0_pay14 (harg2.unread x0) k0_t1_loop.trips := by
  unfold kernelRun0_A
  dsimp only
  sl_unfold_words
  simp only [View.readAt_eq_ld, harg3.read_unread, harg4.read_unread, View.ld_unit_zero (S := S1x16x128) zeros3]

/-- Every piece of the first `n` trips is a block of the one function `blockFn`: by induction on the trips, each
    trip adding its single store. -/
theorem pieces_block (𝒱 : Variants) (c : Dev nD) (bd : Option 𝒱.V) (i : grid0.Coords) (arg2 : Memref sig .tc .vmem S1x128x128x128 .bf16) (harg2 : arg2.IsWhole) (arg3 : Memref sig .tc .vmem S1x16x128 .f32) (harg3 : arg3.IsWhole) (arg4 : Memref sig .tc .vmem S1x16x128 .f32) (harg4 : arg4.IsWhole) (arg5 : Memref sig .tc .vmem S1x128x16x128 .f32) (harg5 : arg5.IsWhole) (v22 : FVec F S16x128 .f32) (v23 : FVec F S16x128 .f32) (v27 : FVec F S16x128 .f32) (v29 : IVec S16x128 32) (v30 : IVec S16x128 32) (v31 : IVec S16x128 32) (v32 : IVec S128x16x128 32) (v33 : IVec S128x16x128 32) (v36 : IVec S128x16x128 1) (v39 : FVec F S128x16x128 .f32) (v40 : FVec F S128x16x128 .f32)
    (x0 : Vec F S1x128x128x128 .bf16) :
    ∀ n : ℕ, n ≤ k0_t1_loop.trips →
      ∀ p ∈ pb_k0_t1 (F := F) 𝒱 c bd i arg2 harg2 arg3 harg3 arg4 harg4 arg5 harg5 v22 v23 v27 v29 v30 v31 v32 v33 v36 v39 v40 (harg2.unread x0) n,
        ∀ x : p.1.shape.Idx, p.2 x = blockFn v22 v23 v27 v29 v30 v31 v32 v33 v36 v39 v40 x0 (p.1.emb x)
  | 0, _ => by
    intro p hp
    rw [pb_k0_t1] at hp
    exact absurd hp List.not_mem_nil
  | n + 1, hn => by
    intro p hp x
    have hk : n < k0_t1_loop.trips := hn
    have hs := pb_k0_t1_succ (F := F) 𝒱 c bd i arg2 harg2 arg3 harg3 arg4 harg4 arg5 harg5 v22 v23 v27 v29 v30 v31 v32 v33 v36 v39 v40 (harg2.unread x0) ⟨n, hk⟩
    rw [show (⟨n, hk⟩ : Fin k0_t1_loop.trips).val + 1 = n + 1 from rfl, show (⟨n, hk⟩ : Fin k0_t1_loop.trips).val = n from rfl, tripL_eq] at hs
    rw [hs] at hp
    rcases List.mem_append.mp hp with h | h
    · obtain rfl := List.mem_singleton.mp h
      rw [harg2.read_unread]
      symm
      refine blockFn_at v22 v23 v27 v29 v30 v31 v32 v33 v36 v39 v40 x0 ⟨n, hk⟩ x _ ?_ ?_ ?_
      · rw [Rect.emb_apply]; simp only [Rect.off_unit, Rect.stride_unit, Gen.k0_off2_eq]
        show 4 * n + 1 * (x 1).val = 4 * n + (x 1).val; omega
      · rw [Rect.emb_apply]; simp only [Rect.off_unit, Rect.stride_unit, Gen.k0_off2_eq]
        show 0 + 1 * (x 2).val = (x 2).val; omega
      · rw [Rect.emb_apply]; simp only [Rect.off_unit, Rect.stride_unit, Gen.k0_off2_eq]
        show 0 + 1 * (x 3).val = (x 3).val; omega
    · exact pieces_block 𝒱 c bd i arg2 harg2 arg3 harg3 arg4 harg4 arg5 harg5 v22 v23 v27 v29 v30 v31 v32 v33 v36 v39 v40 x0 n (Nat.le_of_lt hk) p h x

/-- What the body leaves in the output block at channel 4k + cl: trip `k`'s stored value at its channel `cl`. -/
theorem out_apply (c : Dev nD) (i : grid0.Coords) (arg2 : Memref sig .tc .vmem S1x128x128x128 .bf16) (harg2 : arg2.IsWhole)
    (arg3 : Memref sig .tc .vmem S1x16x128 .f32) (harg3 : arg3.IsWhole) (arg4 : Memref sig .tc .vmem S1x16x128 .f32) (harg4 : arg4.IsWhole)
    (arg5 : Memref sig .tc .vmem S1x128x16x128 .f32) (harg5 : arg5.IsWhole)
    (x0 : Vec F S1x128x128x128 .bf16) (x1 : Vec F S1x16x128 .f32) (x2 : Vec F S1x16x128 .f32)
    (k : Fin k0_t1_loop.trips) (cl : Fin 4) (r : Fin 16) (wo : Fin 128) (hlt : 4 * k.val + cl.val < 128) :
    out0_A_3 (F := F) c i arg2 harg2 arg3 harg3 arg4 harg4 arg5 harg5 x0 x1 x2 (ix4 (0 : Fin 1) (⟨4 * k.val + cl.val, hlt⟩ : Fin 128) r wo)
      = k0_pay1 (F := F) (k0_pay6 x1) (k0_pay7 x2) (k0_pay8 x2) (k0_pay9 x1) (k0_pay10 x2) (k0_pay11 x2)
          numbers numbers (k0_pay12 x1) (k0_pay13 x1) k0_pay14 (ldv x0 k) (ix4 (0 : Fin 1) cl r wo) := by
  unfold out0_A_3
  rw [View.read_writes_eq_canon _ _ _ (cover0_A_3 c i arg2 harg2 arg3 harg3 arg4 harg4 arg5 harg5 x0 x1 x2)]
  rw [View.canon_apply_of_pieces
      (blockFn (F := F) (k0_pay6 x1) (k0_pay7 x2) (k0_pay8 x2) (k0_pay9 x1) (k0_pay10 x2) (k0_pay11 x2)
        numbers numbers (k0_pay12 x1) (k0_pay13 x1) k0_pay14 x0)
      _ ?_ _ (cover0_A_3 c i arg2 harg2 arg3 harg3 arg4 harg4 arg5 harg5 x0 x1 x2 _)]
  · exact blockFn_at _ _ _ _ _ _ _ _ _ _ _ x0 k (ix4 (0 : Fin 1) cl r wo) _ rfl rfl rfl
  · rw [run_pieces]
    exact pieces_block Variants.none c none i arg2 harg2 arg3 harg3 arg4 harg4 arg5 harg5 _ _ _ _ _ _ _ _ _ _ _ x0
      k0_t1_loop.trips (Nat.le_refl _)

end Cert.KernelIdeal.Trip

end
-- ==== Proof.KernelPay.lean ====
import proofs.«118315_j54039278519070_2_alg».proof.Proof.Gen.KernelIdeal.Skeleton
import proofs.«118315_j54039278519070_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open Facts₀ Facts

/-- The column-number vector the body compares against. -/
abbrev numbers : IVec S128x16x128 32 := iota .tc S128x16x128 32 [0] Facts₀.iota_S128x16x128_d0_w32

/-! ## The layout operations of the body, read at coordinates -/

/-- A [16, 128] array viewed [1, 16, 128] and repeated along a new leading axis of 128 reads, at (w, r, wo),
    the array at (r, wo). -/
theorem bcast_row_apply {α : Type} (v : S16x128.Idx → α) (h1 : S16x128.ShapeCasts S1x16x128)
    (h2 : S1x16x128.Broadcasts S128x16x128) (w : Fin 128) (r : Fin 16) (wo : Fin 128) :
    broadcastTo S128x16x128 (shapeCast S1x16x128 v h1) h2 (ix3 w r wo) = v (ix2 r wo) := by
  refine (broadcastTo_apply _ h2 (ix3 w r wo) (ix3 (0 : Fin 1) r wo) fun a => ?_).trans
    (shapeCast_ab_1ab_apply v h1 0 r wo)
  match a with
  | ⟨0, _⟩ => rfl
  | ⟨1, _⟩ => rfl
  | ⟨2, _⟩ => rfl

/-- A [128, 16, 128] array viewed [128, 2048] reads, at (w, 128 r + wo), the array at (w, r, wo). -/
theorem cast_cols_apply {α : Type} (x : S128x16x128.Idx → α) (h : S128x16x128.ShapeCasts S128x2048)
    (w : Fin 128) (r : Fin 16) (wo : Fin 128) (q : Fin 2048) (hq : q.val = r.val * 128 + wo.val) :
    shapeCast S128x2048 x h (ix2 w q) = x (ix3 w r wo) :=
  shapeCast_apply x h _ _ (by
    rw [Shape.rowMajor_val_three, Shape.rowMajor_val_two]
    show (w.val * 16 + r.val) * 128 + wo.val = w.val * 2048 + q.val
    omega)

/-- A [1, 4, 128, 128] block viewed [4, 128, 128] and then [512, 128] reads, at (128 cl + h, w), the block at
    (0, cl, h, w). -/
theorem cast_rows_apply {α : Type} (x : S1x4x128x128.Idx → α) (h1 : S1x4x128x128.ShapeCasts S4x128x128)
    (h2 : S4x128x128.ShapeCasts S512x128) (cl : Fin 4) (hh w : Fin 128) (p : Fin 512)
    (hp : p.val = cl.val * 128 + hh.val) :
    shapeCast S512x128 (shapeCast S4x128x128 x h1) h2 (ix2 p w) = x (ix4 (0 : Fin 1) cl hh w) := by
  refine (shapeCast_apply _ h2 (ix2 p w) (ix3 cl hh w) ?_).trans (shapeCast_1abc_abc_apply x h1 cl hh w)
  rw [Shape.rowMajor_val_three, Shape.rowMajor_val_two]
  show (cl.val * 128 + hh.val) * 128 + w.val = p.val * 128 + w.val
  rw [hp]

/-- A [512, 2048] array viewed [4, 128, 16, 128] reads, at (cl, h, r, wo), the array at
    (128 cl + h, 128 r + wo). -/
theorem cast_out_apply {α : Type} (x : S512x2048.Idx → α) (h : S512x2048.ShapeCasts S4x128x16x128)
    (cl : Fin 4) (hh : Fin 128) (r : Fin 16) (wo : Fin 128) (p : Fin 512) (q : Fin 2048)
    (hp : p.val = cl.val * 128 + hh.val) (hq : q.val = r.val * 128 + wo.val) :
    shapeCast S4x128x16x128 x h (ix4 cl hh r wo) = x (ix2 p q) :=
  shapeCast_apply x h _ _ (by
    rw [Shape.rowMajor_val_two, Shape.rowMajor_val_four]
    show p.val * 2048 + q.val = ((cl.val * 128 + hh.val) * 16 + r.val) * 128 + wo.val
    omega)

/-- A [128, 16, 128] array viewed [1, 128, 16, 128] and repeated four times along the leading axis reads, at
    (cl, h, r, wo), the array at (h, r, wo). -/
theorem bcast_plane_apply {α : Type} (y : S128x16x128.Idx → α) (h1 : S128x16x128.ShapeCasts S1x128x16x128)
    (h2 : S1x128x16x128.Broadcasts S4x128x16x128) (cl : Fin 4) (hh : Fin 128) (r : Fin 16) (wo : Fin 128) :
    broadcastTo S4x128x16x128 (shapeCast S1x128x16x128 y h1) h2 (ix4 cl hh r wo) = y (ix3 hh r wo) := by
  refine (broadcastTo_apply _ h2 (ix4 cl hh r wo) (ix4 (0 : Fin 1) hh r wo) fun a => ?_).trans
    (shapeCast_abc_1abc_apply y h1 0 hh r wo)
  match a with
  | ⟨0, _⟩ => rfl
  | ⟨1, _⟩ => rfl
  | ⟨2, _⟩ => rfl
  | ⟨3, _⟩ => rfl

/-- The sum over axis 1 of a [4, 128, 16, 128] array is, at (cl, r, wo), the sum over h of the array at
    (cl, h, r, wo). -/
theorem sum_rows_apply (src : FVec Ideal S4x128x16x128 .f32) (h : S4x128x16x128.Reduces [1] S4x16x128)
    (hφ : FKind.Formats .f32) (hacc : (0x00000000#32 : BitVec 32) = 0x00000000#32)
    (cl : Fin 4) (r : Fin 16) (wo : Fin 128) :
    multiReduction (F := Ideal) .add [1] S4x16x128 src 0x00000000#32 h hφ hacc (ix3 cl r wo)
      = ∑ hh : Fin 128, src (ix4 cl hh r wo) := by
  refine (Ideal.multiReduction_add_single src 0x00000000#32 h hφ hacc (ix3 cl r wo)).trans ?_
  show ∑ k : Fin 128, src (h.lift (ix3 cl r wo) k) = _
  refine Finset.sum_congr rfl fun k _ => congrArg src ?_
  funext a
  apply Fin.ext
  match a with
  | ⟨0, _⟩ => rfl
  | ⟨1, _⟩ => rfl
  | ⟨2, _⟩ => rfl
  | ⟨3, _⟩ => rfl

/-! ## The product of the planes with the column selector, read at coordinates -/

/-- At output index j and contraction position k the left operand is read at (j 0, k) and the right operand at
    (k, j 1): the four coordinates, one lemma each. -/
theorem lhs_axis0 (j : S512x2048.Idx) (k : dot_S512x128_S128x2048_S512x2048_1_0_0_1_n_n.contr.Idx) :
    (dot_S512x128_S128x2048_S512x2048_1_0_0_1_n_n.lhsIdx j k 0 : ℕ) = j 0 := by
  simp [DotDims.lhsIdx, dot_S512x128_S128x2048_S512x2048_1_0_0_1_n_n]; rfl
theorem lhs_axis1 (j : S512x2048.Idx) (k : dot_S512x128_S128x2048_S512x2048_1_0_0_1_n_n.contr.Idx) :
    (dot_S512x128_S128x2048_S512x2048_1_0_0_1_n_n.lhsIdx j k 1 : ℕ) = k ⟨0, by decide⟩ := by
  simp [DotDims.lhsIdx, dot_S512x128_S128x2048_S512x2048_1_0_0_1_n_n]; rfl
theorem rhs_axis0 (j : S512x2048.Idx) (k : dot_S512x128_S128x2048_S512x2048_1_0_0_1_n_n.contr.Idx) :
    (dot_S512x128_S128x2048_S512x2048_1_0_0_1_n_n.rhsIdx j k 0 : ℕ) = k ⟨0, by decide⟩ := by
  simp [DotDims.rhsIdx, dot_S512x128_S128x2048_S512x2048_1_0_0_1_n_n]; rfl
theorem rhs_axis1 (j : S512x2048.Idx) (k : dot_S512x128_S128x2048_S512x2048_1_0_0_1_n_n.contr.Idx) :
    (dot_S512x128_S128x2048_S512x2048_1_0_0_1_n_n.rhsIdx j k 1 : ℕ) = j 1 := by
  simp [DotDims.rhsIdx, dot_S512x128_S128x2048_S512x2048_1_0_0_1_n_n]; rfl

/-- The [512, 128] by [128, 2048] product onto a zero accumulator is, at (p, q), the sum over the 128 contracted
    coordinates of the products of the entries. -/
theorem product_apply (lhs : FVec Ideal S512x128 .bf16) (rhs : FVec Ideal S128x2048 .bf16) (p : Fin 512) (q : Fin 2048) :
    matmul dot_S512x128_S128x2048_S512x2048_1_0_0_1_n_n none lhs rhs (constant (F := Ideal) S512x2048 .f32 0x00000000#32) (ix2 p q)
      = ∑ w : Fin 128, lhs (ix2 p w) * rhs (ix2 w q) := by
  refine (Ideal.matmul_constant_zero_apply _ none lhs rhs (ix2 p q)).trans ?_
  rw [← Equiv.sum_comp (contrEquiv1 dot_S512x128_S128x2048_S512x2048_1_0_0_1_n_n 128 rfl rfl).symm]
  refine Finset.sum_congr rfl fun w _ => ?_
  have cw := contrEquiv1_symm_val dot_S512x128_S128x2048_S512x2048_1_0_0_1_n_n 128 rfl rfl w
  congr 2
  · apply Shape.idx_ext₂
    · exact lhs_axis0 _ _
    · exact (lhs_axis1 _ _).trans cw
  · apply Shape.idx_ext₂
    · exact (rhs_axis0 _ _).trans cw
    · exact rhs_axis1 _ _

/-! ## The coordinate words and weights at an index -/

theorem pay2_apply (v0 : Vec Ideal S1x16x128 .f32) (r : Fin 16) (wo : Fin 128) :
    k0_pay2 (F := Ideal) v0 (ix2 r wo) = Cert.Bilinear.pos (v0 (ix3 (0 : Fin 1) r wo)) := by
  unfold k0_pay2 Cert.Bilinear.pos
  simp only [mulf_apply, addf_apply, broadcast_apply]
  rw [shapeCast_1ab_ab_apply]
  rfl

theorem pay3_apply (v2 : Vec Ideal S1x16x128 .f32) (r : Fin 16) (wo : Fin 128) :
    k0_pay3 (F := Ideal) v2 (ix2 r wo) = Cert.Bilinear.pos (v2 (ix3 (0 : Fin 1) r wo)) := by
  unfold k0_pay3 Cert.Bilinear.pos
  simp only [mulf_apply, addf_apply, broadcast_apply]
  rw [shapeCast_1ab_ab_apply]
  rfl

theorem pay4_apply (v0 : Vec Ideal S1x16x128 .f32) (r : Fin 16) (wo : Fin 128) :
    k0_pay4 (F := Ideal) v0 (ix2 r wo) = Cert.Bilinear.flo (v0 (ix3 (0 : Fin 1) r wo)) := by
  show Ideal.liftRound Int.floor (k0_pay2 (F := Ideal) v0 (ix2 r wo)) = _
  rw [pay2_apply]
  rfl

theorem pay5_apply (v2 : Vec Ideal S1x16x128 .f32) (r : Fin 16) (wo : Fin 128) :
    k0_pay5 (F := Ideal) v2 (ix2 r wo) = Cert.Bilinear.flo (v2 (ix3 (0 : Fin 1) r wo)) := by
  show Ideal.liftRound Int.floor (k0_pay3 (F := Ideal) v2 (ix2 r wo)) = _
  rw [pay3_apply]
  rfl

theorem pay6_apply (v0 : Vec Ideal S1x16x128 .f32) (r : Fin 16) (wo : Fin 128) :
    k0_pay6 (F := Ideal) v0 (ix2 r wo) = Cert.Bilinear.frac (v0 (ix3 (0 : Fin 1) r wo)) := by
  show k0_pay2 (F := Ideal) v0 (ix2 r wo) - k0_pay4 (F := Ideal) v0 (ix2 r wo) = _
  rw [pay2_apply, pay4_apply]
  rfl

theorem pay7_apply (v2 : Vec Ideal S1x16x128 .f32) (r : Fin 16) (wo : Fin 128) :
    k0_pay7 (F := Ideal) v2 (ix2 r wo) = Cert.Bilinear.frac (v2 (ix3 (0 : Fin 1) r wo)) := by
  show k0_pay3 (F := Ideal) v2 (ix2 r wo) - k0_pay5 (F := Ideal) v2 (ix2 r wo) = _
  rw [pay3_apply, pay5_apply]
  rfl

theorem pay8_apply (v2 : Vec Ideal S1x16x128 .f32) (r : Fin 16) (wo : Fin 128) :
    k0_pay8 (F := Ideal) v2 (ix2 r wo) = Cert.Bilinear.cofrac (v2 (ix3 (0 : Fin 1) r wo)) := by
  show Cert.Bilinear.one - k0_pay7 (F := Ideal) v2 (ix2 r wo) = _
  rw [pay7_apply]
  rfl

theorem pay9_apply (v0 : Vec Ideal S1x16x128 .f32) (r : Fin 16) (wo : Fin 128) :
    k0_pay9 (F := Ideal) v0 (ix2 r wo) = Cert.Bilinear.hi (v0 (ix3 (0 : Fin 1) r wo)) := by
  show Ideal.fptosi 32 (k0_pay4 (F := Ideal) v0 (ix2 r wo) + Cert.Bilinear.one) = _
  rw [pay4_apply]
  rfl

theorem pay10_apply (v2 : Vec Ideal S1x16x128 .f32) (r : Fin 16) (wo : Fin 128) :
    k0_pay10 (F := Ideal) v2 (ix2 r wo) = Cert.Bilinear.lo (v2 (ix3 (0 : Fin 1) r wo)) := by
  show Ideal.fptosi 32 (k0_pay5 (F := Ideal) v2 (ix2 r wo)) = _
  rw [pay5_apply]
  rfl

theorem pay11_apply (v2 : Vec Ideal S1x16x128 .f32) (r : Fin 16) (wo : Fin 128) :
    k0_pay11 (F := Ideal) v2 (ix2 r wo) = Cert.Bilinear.hi (v2 (ix3 (0 : Fin 1) r wo)) := by
  show Ideal.fptosi 32 (k0_pay5 (F := Ideal) v2 (ix2 r wo) + Cert.Bilinear.one) = _
  rw [pay5_apply]
  rfl

theorem numbers_apply (w : Fin 128) (r : Fin 16) (wo : Fin 128) :
    numbers (ix3 w r wo) = BitVec.ofNat 32 w.val :=
  iota_single_apply .tc S128x16x128 32 0 _ (ix3 w r wo)

theorem pay12_apply (v0 : Vec Ideal S1x16x128 .f32) (w : Fin 128) (r : Fin 16) (wo : Fin 128) :
    k0_pay12 (F := Ideal) v0 (ix3 w r wo)
      = IntOp.cmpi .eq (BitVec.ofNat 32 w.val) (Cert.Bilinear.lo (v0 (ix3 (0 : Fin 1) r wo))) := by
  unfold k0_pay12
  show IntOp.cmpi .eq (numbers (ix3 w r wo)) (broadcastTo S128x16x128 (shapeCast S1x16x128 (fptosi 32 (k0_pay4 (F := Ideal) v0)) _) _ (ix3 w r wo)) = _
  rw [numbers_apply, bcast_row_apply]
  show IntOp.cmpi .eq _ (Ideal.fptosi 32 (k0_pay4 (F := Ideal) v0 (ix2 r wo))) = _
  rw [pay4_apply]
  rfl

theorem pay13_apply (v0 : Vec Ideal S1x16x128 .f32) (w : Fin 128) (r : Fin 16) (wo : Fin 128) :
    k0_pay13 (F := Ideal) v0 (ix3 w r wo) = Cert.Bilinear.cofrac (v0 (ix3 (0 : Fin 1) r wo)) := by
  unfold k0_pay13
  simp only [shapeCast_self]
  rw [bcast_row_apply]
  show Cert.Bilinear.one - k0_pay6 (F := Ideal) v0 (ix2 r wo) = _
  rw [pay6_apply]
  rfl

theorem pay14_apply (i : S128x16x128.Idx) : k0_pay14 (F := Ideal) i = Cert.Bilinear.zero := rfl

/-! ## The stored value at an index, over any operands -/

/-- A selector vector of the body at (w, r, wo): the first weight where its one-bit condition holds, plus the second
    weight where the number vector equals the second word at (r, wo). -/
theorem selector_apply (c : IVec S128x16x128 1) (a b : FVec Ideal S128x16x128 .f32) (n : IVec S128x16x128 32)
    (v : IVec S16x128 32) (f : FVec Ideal S16x128 .f32) (h1 : S16x128.ShapeCasts S1x16x128)
    (h1' : S1x16x128.ShapeCasts S1x16x128) (h2 : S1x16x128.Broadcasts S128x16x128) (w : Fin 128) (r : Fin 16) (wo : Fin 128) :
    addf (select c a b)
        (select (cmpi .eq n (broadcastTo S128x16x128 (shapeCast S1x16x128 v h1) h2))
          (broadcastTo S128x16x128 (shapeCast S1x16x128 (shapeCast S1x16x128 f h1) h1') h2)
          (broadcast S128x16x128 (Scalar.ofBits (F := Ideal) .f32 0x00000000#32))) (ix3 w r wo)
      = Scalar.select (c (ix3 w r wo)) (a (ix3 w r wo)) (b (ix3 w r wo))
        + Scalar.select (IntOp.cmpi .eq (n (ix3 w r wo)) (v (ix2 r wo))) (f (ix2 r wo)) Cert.Bilinear.zero := by
  show Scalar.select _ _ _ + Scalar.select (IntOp.cmpi .eq _ (broadcastTo S128x16x128 (shapeCast S1x16x128 v h1) h2 (ix3 w r wo)))
    (broadcastTo S128x16x128 (shapeCast S1x16x128 (shapeCast S1x16x128 f h1) h1') h2 (ix3 w r wo)) _ = _
  rw [shapeCast_self, bcast_row_apply, bcast_row_apply]
  rfl

/-- The same with both weights placed by the number vector. -/
theorem selector2_apply (n : IVec S128x16x128 32) (v v' : IVec S16x128 32) (f f' : FVec Ideal S16x128 .f32)
    (h1 : S16x128.ShapeCasts S1x16x128) (h1' : S1x16x128.ShapeCasts S1x16x128) (h2 : S1x16x128.Broadcasts S128x16x128)
    (w : Fin 128) (r : Fin 16) (wo : Fin 128) :
    addf
        (select (cmpi .eq n (broadcastTo S128x16x128 (shapeCast S1x16x128 v h1) h2))
          (broadcastTo S128x16x128 (shapeCast S1x16x128 (shapeCast S1x16x128 f h1) h1') h2)
          (broadcast S128x16x128 (Scalar.ofBits (F := Ideal) .f32 0x00000000#32)))
        (select (cmpi .eq n (broadcastTo S128x16x128 (shapeCast S1x16x128 v' h1) h2))
          (broadcastTo S128x16x128 (shapeCast S1x16x128 (shapeCast S1x16x128 f' h1) h1') h2)
          (broadcast S128x16x128 (Scalar.ofBits (F := Ideal) .f32 0x00000000#32))) (ix3 w r wo)
      = Scalar.select (IntOp.cmpi .eq (n (ix3 w r wo)) (v (ix2 r wo))) (f (ix2 r wo)) Cert.Bilinear.zero
        + Scalar.select (IntOp.cmpi .eq (n (ix3 w r wo)) (v' (ix2 r wo))) (f' (ix2 r wo)) Cert.Bilinear.zero := by
  show Scalar.select (IntOp.cmpi .eq _ (broadcastTo S128x16x128 (shapeCast S1x16x128 v h1) h2 (ix3 w r wo)))
      (broadcastTo S128x16x128 (shapeCast S1x16x128 (shapeCast S1x16x128 f h1) h1') h2 (ix3 w r wo)) _
    + Scalar.select (IntOp.cmpi .eq _ (broadcastTo S128x16x128 (shapeCast S1x16x128 v' h1) h2 (ix3 w r wo)))
      (broadcastTo S128x16x128 (shapeCast S1x16x128 (shapeCast S1x16x128 f' h1) h1') h2 (ix3 w r wo)) _ = _
  rw [shapeCast_self, shapeCast_self, bcast_row_apply, bcast_row_apply, bcast_row_apply, bcast_row_apply]
  rfl

/-- The stored value at (0, cl, r, wo), over any operands: the sum over rows h of (the sum over columns w of plane cl
    at (h, w) times the column selector at (w, r, wo)) times the row selector at (h, r, wo). -/
theorem pay1_apply (v22 v23 v27 : FVec Ideal S16x128 .f32) (v29 v30 v31 : IVec S16x128 32)
    (v32 v33 : IVec S128x16x128 32) (v36 : IVec S128x16x128 1) (v39 v40 : FVec Ideal S128x16x128 .f32)
    (v74 : Vec Ideal S1x4x128x128 .bf16) (cl : Fin 4) (r : Fin 16) (wo : Fin 128) :
    k0_pay1 (F := Ideal) v22 v23 v27 v29 v30 v31 v32 v33 v36 v39 v40 v74 (ix4 (0 : Fin 1) cl r wo)
      = ∑ hh : Fin 128, (∑ w : Fin 128, v74 (ix4 (0 : Fin 1) cl hh w)
            * (Scalar.select (v36 (ix3 w r wo)) (v39 (ix3 w r wo)) (v40 (ix3 w r wo))
              + Scalar.select (IntOp.cmpi .eq (v32 (ix3 w r wo)) (v29 (ix2 r wo))) (v22 (ix2 r wo)) Cert.Bilinear.zero))
          * (Scalar.select (IntOp.cmpi .eq (v33 (ix3 hh r wo)) (v30 (ix2 r wo))) (v27 (ix2 r wo)) Cert.Bilinear.zero
            + Scalar.select (IntOp.cmpi .eq (v33 (ix3 hh r wo)) (v31 (ix2 r wo))) (v23 (ix2 r wo)) Cert.Bilinear.zero) := by
  unfold k0_pay1
  refine (shapeCast_abc_1abc_apply _ _ 0 cl r wo).trans ?_
  refine (sum_rows_apply _ _ _ _ cl r wo).trans ?_
  refine Finset.sum_congr rfl fun hh _ => ?_
  refine (mulf_apply _ _ _).trans ?_
  have hp : (⟨cl.val * 128 + hh.val, by omega⟩ : Fin 512).val = cl.val * 128 + hh.val := rfl
  have hq : (⟨r.val * 128 + wo.val, by omega⟩ : Fin 2048).val = r.val * 128 + wo.val := rfl
  rw [cast_out_apply _ _ cl hh r wo _ _ hp hq, bcast_plane_apply, selector2_apply, product_apply]
  congr 1
  refine Finset.sum_congr rfl fun w _ => ?_
  rw [cast_rows_apply _ _ _ cl hh w _ hp]
  congr 1
  refine (truncf_apply (φ := .f32) (ψ := .bf16) _ _ _).trans ?_
  rw [cast_cols_apply _ _ w r wo _ hq, selector_apply]

/-- One trip's stored value at channel `cl` of its four, output row `r`, column `wo`: the selector-sum form of the
    plane `cl` of the trip's four image planes at the coordinate pair the two coordinate blocks hold at (r, wo). -/
theorem pay_apply (gxb gyb : Vec Ideal S1x16x128 .f32) (planes : Vec Ideal S1x4x128x128 .bf16)
    (cl : Fin 4) (r : Fin 16) (wo : Fin 128) :
    k0_pay1 (F := Ideal) (k0_pay6 gxb) (k0_pay7 gyb) (k0_pay8 gyb) (k0_pay9 gxb) (k0_pay10 gyb) (k0_pay11 gyb)
        numbers numbers (k0_pay12 gxb) (k0_pay13 gxb) k0_pay14 planes (ix4 (0 : Fin 1) cl r wo)
      = Cert.Bilinear.kform (fun h w => planes (ix4 (0 : Fin 1) cl h w)) (gxb (ix3 (0 : Fin 1) r wo)) (gyb (ix3 (0 : Fin 1) r wo)) := by
  rw [pay1_apply]
  unfold Cert.Bilinear.kform Cert.Bilinear.pick
  refine Finset.sum_congr rfl fun hh _ => ?_
  rw [numbers_apply, pay10_apply, pay8_apply, pay11_apply, pay7_apply]
  congr 1
  refine Finset.sum_congr rfl fun w _ => ?_
  rw [numbers_apply, pay12_apply, pay13_apply, pay14_apply, pay9_apply, pay6_apply]

end Cert.KernelIdeal.Pay

end
-- ==== Proof.KernelValue.lean ====
/-
  The kernel's result array as one function of the two argument arrays.

  The grid has 8 × 8 points; point t = 8·b + ht stages the whole image of batch b (converted to a shorter float format on
  the way, which changes no value over the extended reals), rows 16·ht … 16·ht + 15 of the two coordinate planes of
  batch b, and writes back the [128, 16, 128] block of channels × those rows × all columns. The body leaves in that
  block, at (channel, row, column), the selector-sum form of the image plane at the coordinate pair of (row, column);
  the 64 blocks tile the result array, so the array ends holding the selector-sum form everywhere.
-/
import proofs.«118315_j54039278519070_2_alg».proof.Proof.Gen.KernelIdeal.Value
import proofs.«118315_j54039278519070_2_alg».proof.Proof.KernelTrip
import proofs.«118315_j54039278519070_2_alg».proof.Proof.KernelPay
import proofs.«118315_j54039278519070_2_alg».proof.Proof.Spec
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's output block at (channel, row, column), on any staging buffers holding an image block `x0` and two
    coordinate blocks `x1`, `x2`: the selector-sum form of plane `ch` of the image block at the coordinates at (r, wo). -/
theorem out_eq_kform (c : Dev nD) (i : grid0.Coords) (arg2 : Memref sig .tc .vmem S1x128x128x128 .bf16) (harg2 : arg2.IsWhole)
    (arg3 : Memref sig .tc .vmem S1x16x128 .f32) (harg3 : arg3.IsWhole) (arg4 : Memref sig .tc .vmem S1x16x128 .f32) (harg4 : arg4.IsWhole)
    (arg5 : Memref sig .tc .vmem S1x128x16x128 .f32) (harg5 : arg5.IsWhole)
    (x0 : Vec Ideal S1x128x128x128 .bf16) (x1 : Vec Ideal S1x16x128 .f32) (x2 : Vec Ideal S1x16x128 .f32)
    (ch : Fin 128) (r : Fin 16) (wo : Fin 128) :
    out0_A_3 (F := Ideal) c i arg2 harg2 arg3 harg3 arg4 harg4 arg5 harg5 x0 x1 x2 (ix4 (0 : Fin 1) ch r wo)
      = Cert.Bilinear.kform (fun h w => x0 (ix4 (0 : Fin 1) ch h w)) (x1 (ix3 (0 : Fin 1) r wo)) (x2 (ix3 (0 : Fin 1) r wo)) := by
  have hk : ch.val / 4 < k0_t1_loop.trips := by rw [Trip.trips_eq]; have := ch.isLt; omega
  have hcl : ch.val % 4 < 4 := Nat.mod_lt _ (by decide)
  have hlt : 4 * (⟨ch.val / 4, hk⟩ : Fin k0_t1_loop.trips).val + (⟨ch.val % 4, hcl⟩ : Fin 4).val < 128 := by
    show 4 * (ch.val / 4) + ch.val % 4 < 128; have := ch.isLt; omega
  have hch : ch = (⟨4 * (⟨ch.val / 4, hk⟩ : Fin k0_t1_loop.trips).val + (⟨ch.val % 4, hcl⟩ : Fin 4).val, hlt⟩ : Fin 128) :=
    Fin.ext (by show ch.val = 4 * (ch.val / 4) + ch.val % 4; omega)
  rw [hch, Trip.out_apply (F := Ideal) c i arg2 harg2 arg3 harg3 arg4 harg4 arg5 harg5 x0 x1 x2 ⟨ch.val / 4, hk⟩ ⟨ch.val % 4, hcl⟩ r wo hlt]
  refine (Pay.pay_apply x1 x2 (Trip.ldv x0 ⟨ch.val / 4, hk⟩) ⟨ch.val % 4, hcl⟩ r wo).trans ?_
  congr 1
  funext h w
  exact Trip.ldv_apply x0 ⟨ch.val / 4, hk⟩ ⟨ch.val % 4, hcl⟩ h w hlt

/-! ## What the windows' arrays hold when the region is entered -/

/-- The image window's array: the image argument (the format change is the identity on extended reals). -/
theorem V_img (c : Dev nD) : (V m c main_v4 : S8x128x128x128.Idx → EReal) = m ((c : Thread nD τ).loc main_arg0) := by
  dsimp only [Gen.V, Gen.hostOps0]
  after_results
  rfl

/-- A [8,128,128,1] → [8,128,128] cast of the unit-width slice at offset `k` of the last axis reads component `k`. -/
theorem slice_cast_apply (x : S8x128x128x2.Idx → EReal) (k : Fin 2) (hs : S8x128x128x2.Slices ![0, 0, 0, k.val] S8x128x128x1)
    (hc : S8x128x128x1.ShapeCasts S8x128x128) (b : Fin 8) (r wo : Fin 128) :
    shapeCast S8x128x128 (extractStridedSlice S8x128x128x1 ![0, 0, 0, k.val] x hs) hc (ix3 b r wo) = x (ix4 b r wo k) := by
  rw [shapeCast_apply _ hc (ix3 b r wo) (ix4 b r wo (0 : Fin 1)) (by
    rw [Shape.rowMajor_val_four, Shape.rowMajor_val_three]
    show ((b.val * 128 + r.val) * 128 + wo.val) * 1 + 0 = (b.val * 128 + r.val) * 128 + wo.val
    omega)]
  exact extractStridedSlice_apply _ x hs (ix4 b r wo (0 : Fin 1)) (ix4 b r wo k) (fun a => match a with
    | ⟨0, _⟩ => by show b.val = 0 + b.val; omega
    | ⟨1, _⟩ => by show r.val = 0 + r.val; omega
    | ⟨2, _⟩ => by show wo.val = 0 + wo.val; omega
    | ⟨3, _⟩ => by show k.val = k.val + 0; omega)

/-- The x-coordinate window's array at (b, r, wo): component 0 of the grid argument there. -/
theorem V_gx (c : Dev nD) (b : Fin 8) (r wo : Fin 128) :
    (V m c main_v1 : S8x128x128.Idx → EReal) (ix3 b r wo) = m ((c : Thread nD τ).loc main_arg1) (ix4 b r wo (0 : Fin 2)) := by
  have e : (V m c main_v1 : S8x128x128.Idx → EReal)
      = shapeCast S8x128x128 (extractStridedSlice S8x128x128x1 ![0, 0, 0, 0] (m ((c : Thread nD τ).loc main_arg1)) Facts₀.slices_S8x128x128x2_S8x128x128x1_0_0_0_0) Facts₀.shapeCasts_S8x128x128x1_S8x128x128 := by
    dsimp only [Gen.V, Gen.hostOps0]
    after_results
    rfl
  rw [e]
  exact slice_cast_apply _ (0 : Fin 2) _ _ b r wo

/-- The y-coordinate window's array at (b, r, wo): component 1 of the grid argument there. -/
theorem V_gy (c : Dev nD) (b : Fin 8) (r wo : Fin 128) :
    (V m c main_v3 : S8x128x128.Idx → EReal) (ix3 b r wo) = m ((c : Thread nD τ).loc main_arg1) (ix4 b r wo (1 : Fin 2)) := by
  have e : (V m c main_v3 : S8x128x128.Idx → EReal)
      = shapeCast S8x128x128 (extractStridedSlice S8x128x128x1 ![0, 0, 0, 1] (m ((c : Thread nD τ).loc main_arg1)) Facts₀.slices_S8x128x128x2_S8x128x128x1_0_0_0_1) Facts₀.shapeCasts_S8x128x128x1_S8x128x128 := by
    dsimp only [Gen.V, Gen.hostOps0]
    after_results
    rfl
  rw [e]
  exact slice_cast_apply _ (1 : Fin 2) _ _ b r wo

/-! ## The grid's index maps, and the blocks read through them -/

/-- Point t = 8·b + ht reads image block b, coordinate blocks (b, ht), and writes result block (b, ·, ht, ·). -/
theorem idx_facts : ∀ t : Fin cfg0.N,
    win0_0.index t (0 : Fin 4) = t.val / 8 ∧ win0_0.index t (1 : Fin 4) = 0 ∧ win0_0.index t (2 : Fin 4) = 0 ∧ win0_0.index t (3 : Fin 4) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 4) = t.val / 8 ∧ win0_3.index t (1 : Fin 4) = 0 ∧ win0_3.index t (2 : Fin 4) = t.val % 8 ∧ win0_3.index t (3 : Fin 4) = 0 :=
  (by decide +kernel : ∀ t : Fin grid0.N, _)

theorem t_lt (t : Fin cfg0.N) : t.val < 64 := Nat.lt_of_lt_of_eq t.isLt N_0

/-- The batch of a grid point, and the first of its sixteen rows. -/
abbrev batchOf (t : Fin cfg0.N) : Fin 8 := ⟨t.val / 8, by have := t_lt t; omega⟩
abbrev rowOf (t : Fin cfg0.N) (r : Fin 16) : Fin 128 := ⟨16 * (t.val % 8) + r.val, by have := r.isLt; omega⟩

/-- The image block of point `t` at (channel, h, w) is the image argument at (batch, channel, h, w). -/
theorem iblk0_apply (c : Dev nD) (t : Fin cfg0.N) (ch h w : Fin 128) :
    (iblk m c 0 t : S1x128x128x128.Idx → EReal) (ix4 (0 : Fin 1) ch h w)
      = m ((c : Thread nD τ).loc main_arg0) (ix4 (batchOf t) ch h w) := by
  unfold iblk
  rw [View.read_apply]
  show (V m c main_v4 : S8x128x128x128.Idx → EReal) (((cfg0.win 0).blk t).view.emb (ix4 (0 : Fin 1) ch h w)) = _
  rw [V_img]
  congr 1
  funext a; apply Fin.ext
  obtain ⟨e0, e1, e2, e3, -⟩ := idx_facts t
  match a with
  | ⟨0, _⟩ => show win0_0.index t (0 : Fin 4) * 1 + 1 * 0 = t.val / 8; omega
  | ⟨1, _⟩ => show win0_0.index t (1 : Fin 4) * 128 + 1 * ch.val = ch.val; omega
  | ⟨2, _⟩ => show win0_0.index t (2 : Fin 4) * 128 + 1 * h.val = h.val; omega
  | ⟨3, _⟩ => show win0_0.index t (3 : Fin 4) * 128 + 1 * w.val = w.val; omega

/-- The x-coordinate block of point `t` at (r, wo) is component 0 of the grid argument at (batch, row, wo). -/
theorem iblk1_apply (c : Dev nD) (t : Fin cfg0.N) (r : Fin 16) (wo : Fin 128) :
    (iblk m c 1 t : S1x16x128.Idx → EReal) (ix3 (0 : Fin 1) r wo)
      = m ((c : Thread nD τ).loc main_arg1) (ix4 (batchOf t) (rowOf t r) wo (0 : Fin 2)) := by
  unfold iblk
  rw [View.read_apply]
  show (V m c main_v1 : S8x128x128.Idx → EReal) (((cfg0.win 1).blk t).view.emb (ix3 (0 : Fin 1) r wo)) = _
  rw [← V_gx m c (batchOf t) (rowOf t r) wo]
  congr 1
  funext a; apply Fin.ext
  obtain ⟨-, -, -, -, e0, e1, e2, -⟩ := idx_facts t
  match a with
  | ⟨0, _⟩ => show win0_1.index t (0 : Fin 3) * 1 + 1 * 0 = t.val / 8; omega
  | ⟨1, _⟩ => show win0_1.index t (1 : Fin 3) * 16 + 1 * r.val = 16 * (t.val % 8) + r.val; omega
  | ⟨2, _⟩ => show win0_1.index t (2 : Fin 3) * 128 + 1 * wo.val = wo.val; omega

/-- The y-coordinate block of point `t` at (r, wo) is component 1 of the grid argument at (batch, row, wo). -/
theorem iblk2_apply (c : Dev nD) (t : Fin cfg0.N) (r : Fin 16) (wo : Fin 128) :
    (iblk m c 2 t : S1x16x128.Idx → EReal) (ix3 (0 : Fin 1) r wo)
      = m ((c : Thread nD τ).loc main_arg1) (ix4 (batchOf t) (rowOf t r) wo (1 : Fin 2)) := by
  unfold iblk
  rw [View.read_apply]
  show (V m c main_v3 : S8x128x128.Idx → EReal) (((cfg0.win 2).blk t).view.emb (ix3 (0 : Fin 1) r wo)) = _
  rw [← V_gy m c (batchOf t) (rowOf t r) wo]
  congr 1
  funext a; apply Fin.ext
  obtain ⟨-, -, -, -, -, -, -, e0, e1, e2, -⟩ := idx_facts t
  match a with
  | ⟨0, _⟩ => show win0_2.index t (0 : Fin 3) * 1 + 1 * 0 = t.val / 8; omega
  | ⟨1, _⟩ => show win0_2.index t (1 : Fin 3) * 16 + 1 * r.val = 16 * (t.val % 8) + r.val; omega
  | ⟨2, _⟩ => show win0_2.index t (2 : Fin 3) * 128 + 1 * wo.val = wo.val; omega

/-- Where the result block of point `t` puts its (channel, r, wo): at (batch, channel, row, wo) of the result array. -/
theorem emb3_apply (t : Fin cfg0.N) (ch : Fin 128) (r : Fin 16) (wo : Fin 128) :
    ((cfg0.win 3).blk t).view.emb (ix4 (0 : Fin 1) ch r wo) = (ix4 (batchOf t) ch (rowOf t r) wo : S8x128x128x128.Idx) := by
  funext a; apply Fin.ext
  obtain ⟨-, -, -, -, -, -, -, -, -, -, e0, e1, e2, e3⟩ := idx_facts t
  match a with
  | ⟨0, _⟩ => show win0_3.index t (0 : Fin 4) * 1 + 1 * 0 = t.val / 8; omega
  | ⟨1, _⟩ => show win0_3.index t (1 : Fin 4) * 128 + 1 * ch.val = ch.val; omega
  | ⟨2, _⟩ => show win0_3.index t (2 : Fin 4) * 16 + 1 * r.val = 16 * (t.val % 8) + r.val; omega
  | ⟨3, _⟩ => show win0_3.index t (3 : Fin 4) * 128 + 1 * wo.val = wo.val; omega

/-! ## The result array -/

/-- The selector-sum form at every index of the result array. -/
def Gk (x0 : S8x128x128x128.Idx → EReal) (x1 : S8x128x128x2.Idx → EReal) : S8x128x128x128.Idx → EReal :=
  fun i => Cert.Bilinear.kformAt x0 x1 (i 0) (i 1) (i 2) (i 3)

/-- What point `t` writes back is block `t` of that function of the two argument arrays. -/
theorem flushed_eq (c : Dev nD) (t : Fin cfg0.N) :
    (dats m 0 c).flushed 3 t = ((cfg0.win 3).blk t).view.read (Elt Ideal)
      (Gk (m ((c : Thread nD τ).loc main_arg0)) (m ((c : Thread nD τ).loc main_arg1))) := by
  rw [Value.flushed3_A]
  funext j
  obtain ⟨u, ch, r, wo, rfl⟩ : ∃ (u : Fin 1) (ch : Fin 128) (r : Fin 16) (wo : Fin 128), j = ix4 u ch r wo :=
    ⟨j 0, j 1, j 2, j 3, eq_ix4 j⟩
  obtain rfl : u = 0 := Subsingleton.elim _ _
  rw [View.read_apply, emb3_apply]
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) (ix4 (0 : Fin 1) ch r wo)
    = Gk (m ((c : Thread nD τ).loc main_arg0)) (m ((c : Thread nD τ).loc main_arg1)) (ix4 (batchOf t) ch (rowOf t r) wo)
  rw [out_eq_kform]
  show Cert.Bilinear.kform (fun h w => (iblk m c 0 t : S1x128x128x128.Idx → EReal) (ix4 (0 : Fin 1) ch h w))
      ((iblk m c 1 t : S1x16x128.Idx → EReal) (ix3 (0 : Fin 1) r wo)) ((iblk m c 2 t : S1x16x128.Idx → EReal) (ix3 (0 : Fin 1) r wo))
    = Cert.Bilinear.kform (fun h w => m ((c : Thread nD τ).loc main_arg0) (ix4 (batchOf t) ch h w))
      (m ((c : Thread nD τ).loc main_arg1) (ix4 (batchOf t) (rowOf t r) wo (0 : Fin 2)))
      (m ((c : Thread nD τ).loc main_arg1) (ix4 (batchOf t) (rowOf t r) wo (1 : Fin 2)))
  rw [iblk1_apply, iblk2_apply]
  congr 1
  funext h w
  exact iblk0_apply m c t ch h w

/-- Every index of the result array lies in some point's block: the 64 blocks tile it. -/
theorem covered (i : S8x128x128x128.Idx) :
    ∃ t : Fin cfg0.N, (cfg0.win 3).flush t = true ∧ i ∈ ((cfg0.win 3).blk t).view.set := by
  have h0 : (i 0).val < 8 := (i 0).isLt
  have h1 : (i 1).val < 128 := (i 1).isLt
  have h2 : (i 2).val < 128 := (i 2).isLt
  have h3 : (i 3).val < 128 := (i 3).isLt
  have hN : cfg0.N = 64 := N_0
  obtain ⟨t, ht⟩ : ∃ t : Fin cfg0.N, t.val = 8 * (i 0).val + (i 2).val / 16 := ⟨⟨8 * (i 0).val + (i 2).val / 16, by rw [hN]; omega⟩, rfl⟩
  refine ⟨t, flush0_3 t, ?_⟩
  show i ∈ ((View.whole main_v5).slice (win0_3.rect t)).set
  rw [View.set_slice_whole, Rect.mem_set_unit]
  obtain ⟨-, -, -, -, -, -, -, -, -, -, e0, e1, e2, e3⟩ := idx_facts t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 16 ≤ (i 2).val ∧ (i 2).val < win0_3.index t (2 : Fin 4) * 16 + 16; omega
  | ⟨3, _⟩ => show win0_3.index t (3 : Fin 4) * 128 ≤ (i 3).val ∧ (i 3).val < win0_3.index t (3 : Fin 4) * 128 + 128; omega

/-- So the result array ends holding the selector-sum form of the two argument arrays. -/
theorem final (c : Dev nD) : (dats m 0 c).arrAt 3 cfg0.N
    = Gk (m ((c : Thread nD τ).loc main_arg0)) (m ((c : Thread nD τ).loc main_arg1)) :=
  (dats m 0 c).arrAt_eq_of_cover 3 (Gk (m ((c : Thread nD τ).loc main_arg0)) (m ((c : Thread nD τ).loc main_arg1)))
    (fun t _ => flushed_eq m c t) covered

/-- The kernel's run, read: the result array at that function, the arguments unchanged. -/
theorem run : θ_run defs (onTc (τ := τ) (main (F := Ideal))) ⟨m, fun _ => 0, ρ⟩ fun r => ∀ c : Dev nD,
      r.2.mem ((c : Thread nD τ).loc main_v5) = Gk (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.RefStages.lean ====
/-
  The reference's run, read: what each buffer holds after the operations, window by window.

  After each printed window of @main the buffers that later windows still read hold the stages of the program at the
  two arguments (the stage functions are the per-operation values of the reference); the last window leaves the
  result buffer at the last stage. Each window is read by unfolding its operations' results once.
-/
import proofs.«118315_j54039278519070_2_alg».proof.Proof.RefOps
import proofs.«118315_j54039278519070_2_alg».proof.Proof.RefRead

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The value of a buffer after a window: unfold every operation's result — in one pass where the pass reaches, one
    operation at a time inside the operand list of a concatenation, where it does not — and replace what the window
    found in the buffers it reads by the stages they held. What is left is the stage, unfolded. -/
macro "open_window" : tactic =>
  `(tactic| (after_results_simp <;>
      (repeat (first
        | rw [nullary_result] | rw [unary_result] | rw [binary_result] | rw [ternary_result] | rw [reshape_result]
        | (rw [nullary_result_ne]; rotate_left; decide)
        | (rw [unary_result_ne]; rotate_left; decide)
        | (rw [binary_result_ne]; rotate_left; decide)
        | (rw [ternary_result_ne]; rotate_left; decide)
        | (rw [reshape_result_ne]; rotate_left; decide))) <;>
      (try simp only [TRef.ofBuf, TRef.toBuf, cast_eq]) <;> (try simp only [*])))

/-- What later windows read, after window 0: the arguments as launched, the four weights, the four neighbour words, the first tap's mask and the two clip bounds, each at its stage. -/
def Held0 (W : Valuation τ sig (Elt F)) (x0 : (⟨S8x128x128x128, .f32⟩ : BufTy).Contents (Elt F))
    (x1 : (⟨S8x128x128x2, .f32⟩ : BufTy).Contents (Elt F)) : Prop :=
  W (Proc.devRef .tc main_arg0) = x0
  ∧ W (Proc.devRef .tc main_arg1) = x1
  ∧ W (Proc.devRef .tc main_v22) = val_main_v22 (F := F) x1
  ∧ W (Proc.devRef .tc main_v23) = val_main_v23 (F := F) x1
  ∧ W (Proc.devRef .tc main_v25) = val_main_v25 (F := F) x1
  ∧ W (Proc.devRef .tc main_v27) = val_main_v27 (F := F) x1
  ∧ W (Proc.devRef .tc main_v28) = val_main_v28 (F := F) x1
  ∧ W (Proc.devRef .tc main_v29) = val_main_v29 (F := F) x1
  ∧ W (Proc.devRef .tc main_v30) = val_main_v30 (F := F) x1
  ∧ W (Proc.devRef .tc main_v31) = val_main_v31 (F := F) x1
  ∧ W (Proc.devRef .tc main_v43) = val_main_v43 (F := F) x1
  ∧ W (Proc.devRef .tc main_c_12) = val_main_c_12 (F := F)
  ∧ W (Proc.devRef .tc main_c_13) = val_main_c_13 (F := F)

/-- After window 1: the weights and words still read, the first tap's masked read, and the second tap's mask and clipped indices as far as the window got. -/
def Held1 (W : Valuation τ sig (Elt F)) (x0 : (⟨S8x128x128x128, .f32⟩ : BufTy).Contents (Elt F))
    (x1 : (⟨S8x128x128x2, .f32⟩ : BufTy).Contents (Elt F)) : Prop :=
  W (Proc.devRef .tc main_arg0) = x0
  ∧ W (Proc.devRef .tc main_arg1) = x1
  ∧ W (Proc.devRef .tc main_v22) = val_main_v22 (F := F) x1
  ∧ W (Proc.devRef .tc main_v23) = val_main_v23 (F := F) x1
  ∧ W (Proc.devRef .tc main_v25) = val_main_v25 (F := F) x1
  ∧ W (Proc.devRef .tc main_v27) = val_main_v27 (F := F) x1
  ∧ W (Proc.devRef .tc main_v28) = val_main_v28 (F := F) x1
  ∧ W (Proc.devRef .tc main_v29) = val_main_v29 (F := F) x1
  ∧ W (Proc.devRef .tc main_v31) = val_main_v31 (F := F) x1
  ∧ W (Proc.devRef .tc main_v62) = val_main_v62 (F := F) x0 x1
  ∧ W (Proc.devRef .tc main_v74) = val_main_v74 (F := F) x1
  ∧ W (Proc.devRef .tc main_v76) = val_main_v76 (F := F) x1
  ∧ W (Proc.devRef .tc main_v81) = val_main_v81 (F := F) x1
  ∧ W (Proc.devRef .tc main_v83) = val_main_v83 (F := F) x1
  ∧ W (Proc.devRef .tc main_v85) = val_main_v85 (F := F) x1

/-- After window 2: the weights, the two words the fourth tap reads, the first three taps' masked reads, and the fourth tap's mask as far as the window got. -/
def Held2 (W : Valuation τ sig (Elt F)) (x0 : (⟨S8x128x128x128, .f32⟩ : BufTy).Contents (Elt F))
    (x1 : (⟨S8x128x128x2, .f32⟩ : BufTy).Contents (Elt F)) : Prop :=
  W (Proc.devRef .tc main_arg0) = x0
  ∧ W (Proc.devRef .tc main_arg1) = x1
  ∧ W (Proc.devRef .tc main_v22) = val_main_v22 (F := F) x1
  ∧ W (Proc.devRef .tc main_v23) = val_main_v23 (F := F) x1
  ∧ W (Proc.devRef .tc main_v25) = val_main_v25 (F := F) x1
  ∧ W (Proc.devRef .tc main_v27) = val_main_v27 (F := F) x1
  ∧ W (Proc.devRef .tc main_v29) = val_main_v29 (F := F) x1
  ∧ W (Proc.devRef .tc main_v31) = val_main_v31 (F := F) x1
  ∧ W (Proc.devRef .tc main_v62) = val_main_v62 (F := F) x0 x1
  ∧ W (Proc.devRef .tc main_v93) = val_main_v93 (F := F) x0 x1
  ∧ W (Proc.devRef .tc main_v124) = val_main_v124 (F := F) x0 x1
  ∧ W (Proc.devRef .tc main_v129) = val_main_v129 (F := F) x1
  ∧ W (Proc.devRef .tc main_v130) = val_main_v130 (F := F)

/-- After the last window: the result at the last stage, the arguments as launched. -/
def Held3 (W : Valuation τ sig (Elt F)) (x0 : (⟨S8x128x128x128, .f32⟩ : BufTy).Contents (Elt F))
    (x1 : (⟨S8x128x128x2, .f32⟩ : BufTy).Contents (Elt F)) : Prop :=
  W (Proc.devRef .tc main_arg0) = x0
  ∧ W (Proc.devRef .tc main_arg1) = x1
  ∧ W (Proc.devRef .tc main_v174) = val_main_v174 (F := F) x0 x1

set_option maxHeartbeats 4000000 in
/-- Window 0 from the launch contents. -/
theorem held0 (V : Valuation τ sig (Elt F)) :
    Held0 (after w0 V) (V (Proc.devRef .tc main_arg0)) (V (Proc.devRef .tc main_arg1)) := by
  refine ⟨?_, ?_, ?_, ?_, ?_, ?_, ?_, ?_, ?_, ?_, ?_, ?_, ?_⟩ <;> (open_window <;> rfl)

set_option maxHeartbeats 8000000 in
/-- Window 1 from what window 0 left (the words a concatenation's operands read are replaced there one by one). -/
theorem held1 (W : Valuation τ sig (Elt F)) (x0 : (⟨S8x128x128x128, .f32⟩ : BufTy).Contents (Elt F))
    (x1 : (⟨S8x128x128x2, .f32⟩ : BufTy).Contents (Elt F)) (h : Held0 W x0 x1) : Held1 (after w1 W) x0 x1 := by
  obtain ⟨h_arg0, h_arg1, h_v22, h_v23, h_v25, h_v27, h_v28, h_v29, h_v30, h_v31, h_v43, h_c_12, h_c_13⟩ := h
  refine ⟨?_, ?_, ?_, ?_, ?_, ?_, ?_, ?_, ?_, ?_, ?_, ?_, ?_, ?_, ?_⟩ <;>
    (open_window <;> (try rw [h_v30]) <;> (try rw [h_v28]) <;> (try rw [h_c_12]) <;> (try rw [h_c_13]) <;> rfl)

set_option maxHeartbeats 8000000 in
/-- Window 2 from what window 1 left (the words a concatenation's operands read are replaced there one by one). -/
theorem held2 (W : Valuation τ sig (Elt F)) (x0 : (⟨S8x128x128x128, .f32⟩ : BufTy).Contents (Elt F))
    (x1 : (⟨S8x128x128x2, .f32⟩ : BufTy).Contents (Elt F)) (h : Held1 W x0 x1) : Held2 (after w2 W) x0 x1 := by
  obtain ⟨h_arg0, h_arg1, h_v22, h_v23, h_v25, h_v27, h_v28, h_v29, h_v31, h_v62, h_v74, h_v76, h_v81, h_v83, h_v85⟩ := h
  refine ⟨?_, ?_, ?_, ?_, ?_, ?_, ?_, ?_, ?_, ?_, ?_, ?_, ?_⟩ <;>
    (open_window <;> (try rw [h_v81]) <;> (try rw [h_v83]) <;> (try rw [h_v85]) <;> (try rw [h_v76]) <;> (try rw [h_v31]) <;> (try rw [h_v28]) <;> rfl)

set_option maxHeartbeats 8000000 in
/-- Window 3 from what window 2 left (the words a concatenation's operands read are replaced there one by one). -/
theorem held3 (W : Valuation τ sig (Elt F)) (x0 : (⟨S8x128x128x128, .f32⟩ : BufTy).Contents (Elt F))
    (x1 : (⟨S8x128x128x2, .f32⟩ : BufTy).Contents (Elt F)) (h : Held2 W x0 x1) : Held3 (after w3 W) x0 x1 := by
  obtain ⟨h_arg0, h_arg1, h_v22, h_v23, h_v25, h_v27, h_v29, h_v31, h_v62, h_v93, h_v124, h_v129, h_v130⟩ := h
  refine ⟨?_, ?_, ?_⟩ <;>
    (open_window <;> (try rw [h_v31]) <;> (try rw [h_v29]) <;> rfl)

/-- After the whole program: the result buffer holds the last stage of the two arguments, which are as launched. -/
theorem after_ops (V : Valuation τ sig (Elt F)) :
    after ops V (Proc.devRef .tc main_v174)
        = val_main_v174 (F := F) (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  obtain ⟨h0, h1, h174⟩ := held3 _ _ _ (held2 _ _ _ (held1 _ _ _ (held0 V)))
  unfold ops
  rw [after_append, after_append, after_append]
  exact ⟨h174, h0, h1⟩

/-- The reference's run, read: the result at the last stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v174)
          = val_main_v174 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v174).trans (after_ops (launchContents m c)).1,
       (h c main_arg0).trans (after_ops (launchContents m c)).2.1,
       (h c main_arg1).trans (after_ops (launchContents m c)).2.2⟩)
    (run_after m ρ)

end Cert.ReferenceIdeal.RefRun

end
-- ==== Proof.RefIs.lean ====
/-
  The reference program computes the four-tap bilinear sample.

  The program works on whole arrays; read at one result index (b, c, r, wo) every stage is a scalar formula in the
  coordinate pair the grid holds at (b, r, wo). The pointwise stages (position, floor, weights, conversion to a word,
  range test, clipping) read through by unfolding. The shape stages are read once each: the pair's two
  components (a slice and a reshape), an array over (b, r, wo) spread along a new axis, two one-wide arrays joined
  into the array of start indices, and the gather, whose element at (b, c, r, wo) is the image at batch b, channel c
  and, on the row and column axes, the start index's two components at (b, r, wo) read signed and clamped into
  [0, 127]. Each tap is then the image at the clipped neighbour pair, times the in-range bit, times the product of the
  two weights; the result is the four taps added from the left.
-/
import proofs.«118315_j54039278519070_2_alg».proof.Proof.RefRead
import proofs.«118315_j54039278519070_2_alg».proof.Proof.Spec
import Idealize.ShloMosaic.Lib.Pipeline.Value
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.ReadP Idealize.ShloMosaic Idealize.ShloMosaic.ValueIdx
open Cert.Bilinear (pos flo frac cofrac lo hi inb clipv gidx tap spec specAt result)

/-! ## The shape operations of the program, read at an index given by its coordinates -/

section ShapeReads
variable {α : Type}

/-- The gather's dimension numbers: operand axis 0 is a batching axis paired with the start indices' axis 0, operand
    axis 1 is kept whole (the result's axis 1), operand axes 2 and 3 are collapsed and addressed by the two components
    of the start index, which lie along the start indices' axis 3. -/
abbrev G := gather_S8x128x128x128_S8x128x128x2_S8x128x128x128_1_23_0_0_23_3_112811

/-- THE GATHER READ AT (b, c, r, wo): the operand at batch b, channel c, and on the two collapsed axes the start
    index's two components at (b, r, wo), each read signed and clamped into [0, 127]. -/
theorem gather_apply {w : Nat} (x : S8x128x128x128.Idx → α) (idx : IVec S8x128x128x2 w)
    (b : Fin 8) (c r wo : Fin 128) (vy vx : BitVec w)
    (hy : idx (ix4 b r wo (0 : Fin 2)) = vy) (hx : idx (ix4 b r wo (1 : Fin 2)) = vx) :
    Host.gather G x idx (ix4 b c r wo) =
      x (ix4 b c ⟨min vy.toInt.toNat 127, by omega⟩ ⟨min vx.toInt.toNat 127, by omega⟩) := by
  subst hy hx
  unfold Host.gather
  congr 1
  funext a
  refine Fin.ext ?_
  match a with
  | ⟨0, _⟩ =>
    -- the batching axis: no start, no offset, the result's batch coordinate
    show G.start (ix4 b c r wo) idx 0 + G.batchCoord (ix4 b c r wo) 0 + G.offCoord (ix4 b c r wo) 0 = b.val
    rw [GatherDims.start_batching _ _ _ _ (by decide), GatherDims.offCoord_eq_zero _ _ _ (by decide)]
    unfold GatherDims.batchCoord
    rw [dif_pos (show (0 : Fin 4) ∈ G.operandBatchingDims by decide), Nat.zero_add, Nat.add_zero]
    rfl
  | ⟨1, _⟩ =>
    -- the kept axis: no start, no batch coordinate, the result's offset coordinate
    show G.start (ix4 b c r wo) idx 1 + G.batchCoord (ix4 b c r wo) 1 + G.offCoord (ix4 b c r wo) 1 = c.val
    rw [GatherDims.batchCoord_eq_zero _ _ _ (by decide)]
    unfold GatherDims.start GatherDims.offCoord
    rw [dif_neg (show (1 : Fin 4) ∉ G.startIndexMap by decide), dif_pos (show (1 : Fin 4) ∈ G.sKept by decide)]
    show 0 + 0 + c.val = c.val
    omega
  | ⟨2, _⟩ =>
    -- a collapsed axis: the start index's component 0, clamped
    show G.start (ix4 b c r wo) idx 2 + G.batchCoord (ix4 b c r wo) 2 + G.offCoord (ix4 b c r wo) 2 = _
    have hs : G.siIdx (ix4 b c r wo) ⟨List.idxOf (2 : Fin 4) G.startIndexMap,
        List.idxOf_lt_length_iff.2 (by decide)⟩ = ix4 b r wo (0 : Fin 2) := by
      funext e; refine Fin.ext ?_
      match e with
      | ⟨0, _⟩ => rfl
      | ⟨1, _⟩ => rfl
      | ⟨2, _⟩ => rfl
      | ⟨3, _⟩ => rfl
    rw [GatherDims.batchCoord_eq_zero _ _ _ (by decide), GatherDims.offCoord_eq_zero _ _ _ (by decide)]
    unfold GatherDims.start
    rw [dif_pos (show (2 : Fin 4) ∈ G.startIndexMap by decide), hs]
    rfl
  | ⟨3, _⟩ =>
    -- the other collapsed axis: the start index's component 1, clamped
    show G.start (ix4 b c r wo) idx 3 + G.batchCoord (ix4 b c r wo) 3 + G.offCoord (ix4 b c r wo) 3 = _
    have hs : G.siIdx (ix4 b c r wo) ⟨List.idxOf (3 : Fin 4) G.startIndexMap,
        List.idxOf_lt_length_iff.2 (by decide)⟩ = ix4 b r wo (1 : Fin 2) := by
      funext e; refine Fin.ext ?_
      match e with
      | ⟨0, _⟩ => rfl
      | ⟨1, _⟩ => rfl
      | ⟨2, _⟩ => rfl
      | ⟨3, _⟩ => rfl
    rw [GatherDims.batchCoord_eq_zero _ _ _ (by decide), GatherDims.offCoord_eq_zero _ _ _ (by decide)]
    unfold GatherDims.start
    rw [dif_pos (show (3 : Fin 4) ∈ G.startIndexMap by decide), hs]
    rfl

/-- Two one-wide arrays joined along the last axis: position 0 reads the first. -/
theorem concat_apply0 (A B : S8x128x128x1.Idx → α) (h : Shape.Concatenates [S8x128x128x1, S8x128x128x1] S8x128x128x2 3)
    (b : Fin 8) (r wo : Fin 128) :
    concatenate S8x128x128x2 3 [⟨S8x128x128x1, A⟩, ⟨S8x128x128x1, B⟩] h (ix4 b r wo (0 : Fin 2))
      = A (ix4 b r wo (0 : Fin 1)) :=
  concatenate_pair_apply_left 3 A B h _ rfl _
    (fun e => match e with | ⟨0, _⟩ => rfl | ⟨1, _⟩ => rfl | ⟨2, _⟩ => rfl | ⟨3, _⟩ => rfl)

/-- … and position 1 reads the second. -/
theorem concat_apply1 (A B : S8x128x128x1.Idx → α) (h : Shape.Concatenates [S8x128x128x1, S8x128x128x1] S8x128x128x2 3)
    (b : Fin 8) (r wo : Fin 128) :
    concatenate S8x128x128x2 3 [⟨S8x128x128x1, A⟩, ⟨S8x128x128x1, B⟩] h (ix4 b r wo (1 : Fin 2))
      = B (ix4 b r wo (0 : Fin 1)) :=
  concatenate_pair_apply_right 3 A B h _ rfl rfl _
    (fun e he => match e, he with
      | ⟨0, _⟩, _ => rfl | ⟨1, _⟩, _ => rfl | ⟨2, _⟩, _ => rfl | ⟨3, _⟩, he => absurd rfl he)
    rfl

/-- An array over (batch, row, column) given a one-wide last axis reads the array. -/
theorem bcast_last (f : S8x128x128.Idx → α) (h : S8x128x128.BroadcastsInDim S8x128x128x1 (![0, 1, 2] : Fin 3 → Fin 4))
    (b : Fin 8) (r wo : Fin 128) :
    broadcastInDim S8x128x128x1 ![0, 1, 2] h f (ix4 b r wo (0 : Fin 1)) = f (ix3 b r wo) := by
  show f _ = f _
  congr 1
  funext a
  match a with
  | ⟨0, _⟩ => rfl
  | ⟨1, _⟩ => rfl
  | ⟨2, _⟩ => rfl

/-- An array over (batch, row, column) spread over the channels (first a one-wide channel axis, then 128 channels)
    reads the array at (batch, row, column), whatever the channel. -/
theorem bcast_chan (f : S8x128x128.Idx → α) (h1 : S8x128x128.BroadcastsInDim S8x1x128x128 (![0, 2, 3] : Fin 3 → Fin 4))
    (h2 : S8x1x128x128.BroadcastsInDim S8x128x128x128 (![0, 1, 2, 3] : Fin 4 → Fin 4))
    (b : Fin 8) (c r wo : Fin 128) :
    broadcastInDim S8x128x128x128 ![0, 1, 2, 3] h2 (broadcastInDim S8x1x128x128 ![0, 2, 3] h1 f) (ix4 b c r wo)
      = f (ix3 b r wo) := by
  show f _ = f _
  congr 1
  funext a
  match a with
  | ⟨0, _⟩ => rfl
  | ⟨1, _⟩ => rfl
  | ⟨2, _⟩ => rfl

end ShapeReads

/-! ## The coordinate pair and everything computed from it, at (b, r, wo) -/

section Stages
variable (x0 : (⟨S8x128x128x128, .f32⟩ : BufTy).Contents (Elt Ideal)) (x1 : (⟨S8x128x128x2, .f32⟩ : BufTy).Contents (Elt Ideal))
  (b : Fin 8) (c r wo : Fin 128)

/-- The column coordinate: component 0 of the pair at (b, r, wo). -/
theorem gx_at : val_main_v1 (F := Ideal) x1 (ix3 b r wo) = x1 (ix4 b r wo (0 : Fin 2)) := by
  rw [val_main_v1_apply, val_main_v0_apply]
  congr 1
  funext a
  have hb := b.isLt; have hr := r.isLt; have hw := wo.isLt
  match a with
  | ⟨0, _⟩ => exact Fin.ext (show ((b.val * 128 + r.val) * 128 + wo.val) / 16384 = b.val by omega)
  | ⟨1, _⟩ => exact Fin.ext (show ((b.val * 128 + r.val) * 128 + wo.val) / 128 % 128 = r.val by omega)
  | ⟨2, _⟩ => exact Fin.ext (show ((b.val * 128 + r.val) * 128 + wo.val) / 1 % 128 = wo.val by omega)
  | ⟨3, _⟩ => rfl

/-- The row coordinate: component 1 of the pair at (b, r, wo). -/
theorem gy_at : val_main_v3 (F := Ideal) x1 (ix3 b r wo) = x1 (ix4 b r wo (1 : Fin 2)) := by
  rw [val_main_v3_apply, val_main_v2_apply]
  congr 1
  funext a
  have hb := b.isLt; have hr := r.isLt; have hw := wo.isLt
  match a with
  | ⟨0, _⟩ => exact Fin.ext (show ((b.val * 128 + r.val) * 128 + wo.val) / 16384 = b.val by omega)
  | ⟨1, _⟩ => exact Fin.ext (show ((b.val * 128 + r.val) * 128 + wo.val) / 128 % 128 = r.val by omega)
  | ⟨2, _⟩ => exact Fin.ext (show ((b.val * 128 + r.val) * 128 + wo.val) / 1 % 128 = wo.val by omega)
  | ⟨3, _⟩ => rfl

/-- The column position's floor, as a word. -/
theorem lox_at : val_main_v28 (F := Ideal) x1 (ix3 b r wo) = lo (x1 (ix4 b r wo (0 : Fin 2))) := by
  show lo (val_main_v1 (F := Ideal) x1 (ix3 b r wo)) = _
  rw [gx_at]
/-- The column position's floor plus one, as a word. -/
theorem hix_at : val_main_v29 (F := Ideal) x1 (ix3 b r wo) = hi (x1 (ix4 b r wo (0 : Fin 2))) := by
  show hi (val_main_v1 (F := Ideal) x1 (ix3 b r wo)) = _
  rw [gx_at]
/-- The row position's floor, as a word. -/
theorem loy_at : val_main_v30 (F := Ideal) x1 (ix3 b r wo) = lo (x1 (ix4 b r wo (1 : Fin 2))) := by
  show lo (val_main_v3 (F := Ideal) x1 (ix3 b r wo)) = _
  rw [gy_at]
/-- The row position's floor plus one, as a word. -/
theorem hiy_at : val_main_v31 (F := Ideal) x1 (ix3 b r wo) = hi (x1 (ix4 b r wo (1 : Fin 2))) := by
  show hi (val_main_v3 (F := Ideal) x1 (ix3 b r wo)) = _
  rw [gy_at]
/-- The column position's fractional part. -/
theorem fracx_at : val_main_v22 (F := Ideal) x1 (ix3 b r wo) = frac (x1 (ix4 b r wo (0 : Fin 2))) := by
  show frac (val_main_v1 (F := Ideal) x1 (ix3 b r wo)) = _
  rw [gx_at]
/-- The row position's fractional part. -/
theorem fracy_at : val_main_v23 (F := Ideal) x1 (ix3 b r wo) = frac (x1 (ix4 b r wo (1 : Fin 2))) := by
  show frac (val_main_v3 (F := Ideal) x1 (ix3 b r wo)) = _
  rw [gy_at]
/-- One minus the column position's fractional part. -/
theorem cofracx_at : val_main_v25 (F := Ideal) x1 (ix3 b r wo) = cofrac (x1 (ix4 b r wo (0 : Fin 2))) := by
  show cofrac (val_main_v1 (F := Ideal) x1 (ix3 b r wo)) = _
  rw [gx_at]
/-- One minus the row position's fractional part. -/
theorem cofracy_at : val_main_v27 (F := Ideal) x1 (ix3 b r wo) = cofrac (x1 (ix4 b r wo (1 : Fin 2))) := by
  show cofrac (val_main_v3 (F := Ideal) x1 (ix3 b r wo)) = _
  rw [gy_at]

end Stages

/-! ## The four taps at (b, c, r, wo)

Each tap is: the two neighbour numbers clipped and joined into a start index, the image gathered there, the
in-range bit spread over the channels, the two weights' product spread over the channels; their product. -/

section Taps
variable (x0 : (⟨S8x128x128x128, .f32⟩ : BufTy).Contents (Elt Ideal)) (x1 : (⟨S8x128x128x2, .f32⟩ : BufTy).Contents (Elt Ideal))
  (b : Fin 8) (c r wo : Fin 128)

/-! ### Tap 1: row ⌊y⌋, column ⌊x⌋ -/

/-- The start index's row component: the clipped lower row neighbour. -/
theorem idx1_row : val_main_v58 (F := Ideal) x1 (ix4 b r wo (0 : Fin 2)) = clipv (lo (x1 (ix4 b r wo (1 : Fin 2)))) := by
  unfold val_main_v58
  rw [concat_apply0]
  exact (bcast_last (val_main_v50 (F := Ideal) x1) _ b r wo).trans (congrArg clipv (loy_at x1 b r wo))
/-- The start index's column component: the clipped lower column neighbour. -/
theorem idx1_col : val_main_v58 (F := Ideal) x1 (ix4 b r wo (1 : Fin 2)) = clipv (lo (x1 (ix4 b r wo (0 : Fin 2)))) := by
  unfold val_main_v58
  rw [concat_apply1]
  exact (bcast_last (val_main_v55 (F := Ideal) x1) _ b r wo).trans (congrArg clipv (lox_at x1 b r wo))
/-- The in-range bit of the pair, as a number, at every channel. -/
theorem mask1 : val_main_v61 (F := Ideal) x1 (ix4 b c r wo)
    = FloatOps.uitofp (F := Ideal) .f32 (inb (lo (x1 (ix4 b r wo (1 : Fin 2)))) (lo (x1 (ix4 b r wo (0 : Fin 2))))) := by
  refine (bcast_chan (val_main_v43 (F := Ideal) x1) _ _ b c r wo).trans ?_
  show FloatOps.uitofp (F := Ideal) .f32 (inb (val_main_v30 (F := Ideal) x1 (ix3 b r wo)) (val_main_v28 (F := Ideal) x1 (ix3 b r wo))) = _
  rw [loy_at, lox_at]
/-- The weights' product at every channel. -/
theorem wgt1 : val_main_v158 (F := Ideal) x1 (ix4 b c r wo)
    = cofrac (x1 (ix4 b r wo (1 : Fin 2))) * cofrac (x1 (ix4 b r wo (0 : Fin 2))) := by
  refine (bcast_chan (val_main_v156 (F := Ideal) x1) _ _ b c r wo).trans ?_
  show val_main_v27 (F := Ideal) x1 (ix3 b r wo) * val_main_v25 (F := Ideal) x1 (ix3 b r wo) = _
  rw [cofracy_at, cofracx_at]
/-- The tap. -/
theorem tap1_at : val_main_v159 (F := Ideal) x0 x1 (ix4 b c r wo)
    = tap (fun h w => x0 (ix4 b c h w)) (lo (x1 (ix4 b r wo (1 : Fin 2)))) (lo (x1 (ix4 b r wo (0 : Fin 2))))
        (cofrac (x1 (ix4 b r wo (1 : Fin 2)))) (cofrac (x1 (ix4 b r wo (0 : Fin 2)))) := by
  show (Host.gather G x0 (val_main_v58 (F := Ideal) x1) (ix4 b c r wo) * val_main_v61 (F := Ideal) x1 (ix4 b c r wo))
      * val_main_v158 (F := Ideal) x1 (ix4 b c r wo) = _
  rw [gather_apply x0 _ b c r wo _ _ (idx1_row x1 b r wo) (idx1_col x1 b r wo), mask1, wgt1]
  rfl

/-! ### Tap 2: row ⌊y⌋, column ⌊x⌋ + 1 -/

/-- The start index's row component: the clipped lower row neighbour. -/
theorem idx2_row : val_main_v89 (F := Ideal) x1 (ix4 b r wo (0 : Fin 2)) = clipv (lo (x1 (ix4 b r wo (1 : Fin 2)))) := by
  unfold val_main_v89
  rw [concat_apply0]
  exact (bcast_last (val_main_v81 (F := Ideal) x1) _ b r wo).trans (congrArg clipv (loy_at x1 b r wo))
/-- The start index's column component: the clipped upper column neighbour. -/
theorem idx2_col : val_main_v89 (F := Ideal) x1 (ix4 b r wo (1 : Fin 2)) = clipv (hi (x1 (ix4 b r wo (0 : Fin 2)))) := by
  unfold val_main_v89
  rw [concat_apply1]
  exact (bcast_last (val_main_v86 (F := Ideal) x1) _ b r wo).trans (congrArg clipv (hix_at x1 b r wo))
/-- The in-range bit of the pair, as a number, at every channel. -/
theorem mask2 : val_main_v92 (F := Ideal) x1 (ix4 b c r wo)
    = FloatOps.uitofp (F := Ideal) .f32 (inb (lo (x1 (ix4 b r wo (1 : Fin 2)))) (hi (x1 (ix4 b r wo (0 : Fin 2))))) := by
  refine (bcast_chan (val_main_v74 (F := Ideal) x1) _ _ b c r wo).trans ?_
  show FloatOps.uitofp (F := Ideal) .f32 (inb (val_main_v30 (F := Ideal) x1 (ix3 b r wo)) (val_main_v29 (F := Ideal) x1 (ix3 b r wo))) = _
  rw [loy_at, hix_at]
/-- The weights' product at every channel. -/
theorem wgt2 : val_main_v162 (F := Ideal) x1 (ix4 b c r wo)
    = cofrac (x1 (ix4 b r wo (1 : Fin 2))) * frac (x1 (ix4 b r wo (0 : Fin 2))) := by
  refine (bcast_chan (val_main_v160 (F := Ideal) x1) _ _ b c r wo).trans ?_
  show val_main_v27 (F := Ideal) x1 (ix3 b r wo) * val_main_v22 (F := Ideal) x1 (ix3 b r wo) = _
  rw [cofracy_at, fracx_at]
/-- The tap. -/
theorem tap2_at : val_main_v163 (F := Ideal) x0 x1 (ix4 b c r wo)
    = tap (fun h w => x0 (ix4 b c h w)) (lo (x1 (ix4 b r wo (1 : Fin 2)))) (hi (x1 (ix4 b r wo (0 : Fin 2))))
        (cofrac (x1 (ix4 b r wo (1 : Fin 2)))) (frac (x1 (ix4 b r wo (0 : Fin 2)))) := by
  show (Host.gather G x0 (val_main_v89 (F := Ideal) x1) (ix4 b c r wo) * val_main_v92 (F := Ideal) x1 (ix4 b c r wo))
      * val_main_v162 (F := Ideal) x1 (ix4 b c r wo) = _
  rw [gather_apply x0 _ b c r wo _ _ (idx2_row x1 b r wo) (idx2_col x1 b r wo), mask2, wgt2]
  rfl

/-! ### Tap 3: row ⌊y⌋ + 1, column ⌊x⌋ -/

/-- The start index's row component: the clipped upper row neighbour. -/
theorem idx3_row : val_main_v120 (F := Ideal) x1 (ix4 b r wo (0 : Fin 2)) = clipv (hi (x1 (ix4 b r wo (1 : Fin 2)))) := by
  unfold val_main_v120
  rw [concat_apply0]
  exact (bcast_last (val_main_v112 (F := Ideal) x1) _ b r wo).trans (congrArg clipv (hiy_at x1 b r wo))
/-- The start index's column component: the clipped lower column neighbour. -/
theorem idx3_col : val_main_v120 (F := Ideal) x1 (ix4 b r wo (1 : Fin 2)) = clipv (lo (x1 (ix4 b r wo (0 : Fin 2)))) := by
  unfold val_main_v120
  rw [concat_apply1]
  exact (bcast_last (val_main_v117 (F := Ideal) x1) _ b r wo).trans (congrArg clipv (lox_at x1 b r wo))
/-- The in-range bit of the pair, as a number, at every channel. -/
theorem mask3 : val_main_v123 (F := Ideal) x1 (ix4 b c r wo)
    = FloatOps.uitofp (F := Ideal) .f32 (inb (hi (x1 (ix4 b r wo (1 : Fin 2)))) (lo (x1 (ix4 b r wo (0 : Fin 2))))) := by
  refine (bcast_chan (val_main_v105 (F := Ideal) x1) _ _ b c r wo).trans ?_
  show FloatOps.uitofp (F := Ideal) .f32 (inb (val_main_v31 (F := Ideal) x1 (ix3 b r wo)) (val_main_v28 (F := Ideal) x1 (ix3 b r wo))) = _
  rw [hiy_at, lox_at]
/-- The weights' product at every channel. -/
theorem wgt3 : val_main_v167 (F := Ideal) x1 (ix4 b c r wo)
    = frac (x1 (ix4 b r wo (1 : Fin 2))) * cofrac (x1 (ix4 b r wo (0 : Fin 2))) := by
  refine (bcast_chan (val_main_v165 (F := Ideal) x1) _ _ b c r wo).trans ?_
  show val_main_v23 (F := Ideal) x1 (ix3 b r wo) * val_main_v25 (F := Ideal) x1 (ix3 b r wo) = _
  rw [fracy_at, cofracx_at]
/-- The tap. -/
theorem tap3_at : val_main_v168 (F := Ideal) x0 x1 (ix4 b c r wo)
    = tap (fun h w => x0 (ix4 b c h w)) (hi (x1 (ix4 b r wo (1 : Fin 2)))) (lo (x1 (ix4 b r wo (0 : Fin 2))))
        (frac (x1 (ix4 b r wo (1 : Fin 2)))) (cofrac (x1 (ix4 b r wo (0 : Fin 2)))) := by
  show (Host.gather G x0 (val_main_v120 (F := Ideal) x1) (ix4 b c r wo) * val_main_v123 (F := Ideal) x1 (ix4 b c r wo))
      * val_main_v167 (F := Ideal) x1 (ix4 b c r wo) = _
  rw [gather_apply x0 _ b c r wo _ _ (idx3_row x1 b r wo) (idx3_col x1 b r wo), mask3, wgt3]
  rfl

/-! ### Tap 4: row ⌊y⌋ + 1, column ⌊x⌋ + 1 -/

/-- The start index's row component: the clipped upper row neighbour. -/
theorem idx4_row : val_main_v151 (F := Ideal) x1 (ix4 b r wo (0 : Fin 2)) = clipv (hi (x1 (ix4 b r wo (1 : Fin 2)))) := by
  unfold val_main_v151
  rw [concat_apply0]
  exact (bcast_last (val_main_v143 (F := Ideal) x1) _ b r wo).trans (congrArg clipv (hiy_at x1 b r wo))
/-- The start index's column component: the clipped upper column neighbour. -/
theorem idx4_col : val_main_v151 (F := Ideal) x1 (ix4 b r wo (1 : Fin 2)) = clipv (hi (x1 (ix4 b r wo (0 : Fin 2)))) := by
  unfold val_main_v151
  rw [concat_apply1]
  exact (bcast_last (val_main_v148 (F := Ideal) x1) _ b r wo).trans (congrArg clipv (hix_at x1 b r wo))
/-- The in-range bit of the pair, as a number, at every channel. -/
theorem mask4 : val_main_v154 (F := Ideal) x1 (ix4 b c r wo)
    = FloatOps.uitofp (F := Ideal) .f32 (inb (hi (x1 (ix4 b r wo (1 : Fin 2)))) (hi (x1 (ix4 b r wo (0 : Fin 2))))) := by
  refine (bcast_chan (val_main_v136 (F := Ideal) x1) _ _ b c r wo).trans ?_
  show FloatOps.uitofp (F := Ideal) .f32 (inb (val_main_v31 (F := Ideal) x1 (ix3 b r wo)) (val_main_v29 (F := Ideal) x1 (ix3 b r wo))) = _
  rw [hiy_at, hix_at]
/-- The weights' product at every channel. -/
theorem wgt4 : val_main_v172 (F := Ideal) x1 (ix4 b c r wo)
    = frac (x1 (ix4 b r wo (1 : Fin 2))) * frac (x1 (ix4 b r wo (0 : Fin 2))) := by
  refine (bcast_chan (val_main_v170 (F := Ideal) x1) _ _ b c r wo).trans ?_
  show val_main_v23 (F := Ideal) x1 (ix3 b r wo) * val_main_v22 (F := Ideal) x1 (ix3 b r wo) = _
  rw [fracy_at, fracx_at]
/-- The tap. -/
theorem tap4_at : val_main_v173 (F := Ideal) x0 x1 (ix4 b c r wo)
    = tap (fun h w => x0 (ix4 b c h w)) (hi (x1 (ix4 b r wo (1 : Fin 2)))) (hi (x1 (ix4 b r wo (0 : Fin 2))))
        (frac (x1 (ix4 b r wo (1 : Fin 2)))) (frac (x1 (ix4 b r wo (0 : Fin 2)))) := by
  show (Host.gather G x0 (val_main_v151 (F := Ideal) x1) (ix4 b c r wo) * val_main_v154 (F := Ideal) x1 (ix4 b c r wo))
      * val_main_v172 (F := Ideal) x1 (ix4 b c r wo) = _
  rw [gather_apply x0 _ b c r wo _ _ (idx4_row x1 b r wo) (idx4_col x1 b r wo), mask4, wgt4]
  rfl

end Taps

/-! ## The sum of the four taps -/

/-- The reference's result, stage by stage, is the four-tap form at every index. -/
theorem ref_eq (x0 : (⟨S8x128x128x128, .f32⟩ : BufTy).Contents (Elt Ideal)) (x1 : (⟨S8x128x128x2, .f32⟩ : BufTy).Contents (Elt Ideal)) :
    val_main_v174 (F := Ideal) x0 x1 = Cert.Bilinear.result x0 x1 := by
  funext i
  obtain ⟨b, c, r, wo, rfl⟩ : ∃ b c r wo, i = ix4 b c r wo := ⟨i 0, i 1, i 2, i 3, eq_ix4 i⟩
  show ((val_main_v159 (F := Ideal) x0 x1 (ix4 b c r wo) + val_main_v163 (F := Ideal) x0 x1 (ix4 b c r wo))
      + val_main_v168 (F := Ideal) x0 x1 (ix4 b c r wo)) + val_main_v173 (F := Ideal) x0 x1 (ix4 b c r wo) = _
  rw [tap1_at, tap2_at, tap3_at, tap4_at]
  rfl

end Cert.ReferenceIdeal.RefValue

end
-- ==== Proof.lean ====
/-
  The certificate of the bilinear grid sample.

  The kernel computes each output pixel as a double sum over the whole 128 × 128 source plane: the plane times a column
  selector (the two horizontal neighbours' weights at their column numbers, zero elsewhere), contracted on the matrix
  unit, then times a row selector (the two vertical neighbours' weights at their row numbers) and summed over the rows.
  The reference reads the four neighbours directly: each neighbour pair clipped into the plane, the read value masked
  by "both numbers were in range", times the product of the two weights. On finite inputs both are the same real
  number: a selector is nonzero at one pixel number at most, and at none when its neighbour is out of range.

  The two frames of the kernel are the generated ones; the reference's frame is its run with the result
  dropped; the idealization rewrote nothing. For the value claim the kernel's result array is read off the generated
  frame run block by block (the 64 blocks tile it), the reference's off its run stage by stage, and the
  precondition supplies that every input is a real number, which the algebra needs for distributivity.
-/
import proofs.«118315_j54039278519070_2_alg».proof.Defs
import proofs.«118315_j54039278519070_2_alg».proof.Proof.Gen.Kernel
import proofs.«118315_j54039278519070_2_alg».proof.Proof.Gen.Kernel.Skeleton
import proofs.«118315_j54039278519070_2_alg».proof.Proof.Gen.Kernel.Loops
import proofs.«118315_j54039278519070_2_alg».proof.Proof.Gen.Kernel.Launch
import proofs.«118315_j54039278519070_2_alg».proof.Proof.Gen.Kernel.Points
import proofs.«118315_j54039278519070_2_alg».proof.Proof.Gen.Kernel.Frame
import proofs.«118315_j54039278519070_2_alg».proof.Proof.Gen.KernelIdeal
import proofs.«118315_j54039278519070_2_alg».proof.Proof.Gen.KernelIdeal.Skeleton
import proofs.«118315_j54039278519070_2_alg».proof.Proof.Gen.KernelIdeal.Loops
import proofs.«118315_j54039278519070_2_alg».proof.Proof.Gen.KernelIdeal.Launch
import proofs.«118315_j54039278519070_2_alg».proof.Proof.Gen.KernelIdeal.Points
import proofs.«118315_j54039278519070_2_alg».proof.Proof.Gen.KernelIdeal.Frame
import proofs.«118315_j54039278519070_2_alg».proof.Proof.Gen.ReferenceIdeal
import proofs.«118315_j54039278519070_2_alg».proof.Proof.Gen.Pre_finite_inputs
import proofs.«118315_j54039278519070_2_alg».proof.Proof.Gen.KernelIdeal.Value
import proofs.«118315_j54039278519070_2_alg».proof.Proof.Spec
import proofs.«118315_j54039278519070_2_alg».proof.Proof.Alg
import proofs.«118315_j54039278519070_2_alg».proof.Proof.Finite
import proofs.«118315_j54039278519070_2_alg».proof.Proof.KernelValue
import proofs.«118315_j54039278519070_2_alg».proof.Proof.RefOps
import proofs.«118315_j54039278519070_2_alg».proof.Proof.RefRead
import proofs.«118315_j54039278519070_2_alg».proof.Proof.RefStages
import proofs.«118315_j54039278519070_2_alg».proof.Proof.RefIs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the selector-sum form of the arguments in the result array: the kernel by its run read block
    by block, the reference because its four-tap form equals the selector-sum form on the real inputs the precondition
    admits. -/
theorem algebraic : Cert.algebraic_KernelIdeal_ReferenceIdeal := by
  intro m ρ m' ρ' hpre hagree
  refine ⟨fun c => Cert.KernelIdeal.KValue.Gk
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_eq, (hagree c).1, (hagree c).2]
  obtain ⟨h0, h1⟩ := Cert.Proof.Finite.real_of_pre m hpre c
  funext i
  exact (Cert.Bilinear.kform_eq_spec _ _ _ (fun _ _ => h0 _) (h1 _) (h1 _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
